-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v35)) (v1 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_v47) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S1600000x16 : Shape := ⟨2, ![1600000, 16]⟩
abbrev S1600000x32 : Shape := ⟨2, ![1600000, 32]⟩
abbrev S2x1600000 : Shape := ⟨2, ![2, 1600000]⟩
abbrev S32x32 : Shape := ⟨2, ![32, 32]⟩
abbrev S32x16 : Shape := ⟨2, ![32, 16]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S1600000x32 : S_.BroadcastsInDim S1600000x32 (![] : Fin 0 → Fin S1600000x32.rank)
  reducesTo_S1600000x32_S_d0_1 : S1600000x32.ReducesTo [0, 1] S_
  bcast_S_S32x32 : S_.BroadcastsInDim S32x32 (![] : Fin 0 → Fin S32x32.rank)
  reducesTo_S32x32_S_d0_1 : S32x32.ReducesTo [0, 1] S_
  bcast_S_S32x16 : S_.BroadcastsInDim S32x16 (![] : Fin 0 → Fin S32x16.rank)
  reducesTo_S32x16_S_d0_1 : S32x16.ReducesTo [0, 1] S_

variable [Facts]

def fn_part2 {F : FTy → Type} [FloatOps F] (main_arg8 : FVec F S32x32 .f32) (main_v33 : IVec S_ 1) : IVec S_ 1 :=
  let main_v34 : FVec F S32x32 .f32 := Host.absf main_arg8
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  main_v38

def fn_part1 {F : FTy → Type} [FloatOps F] (main_arg5 : FVec F S32x16 .f32) (main_arg6 : FVec F S32x32 .f32) (main_arg7 : FVec F S32x32 .f32) (main_arg8 : FVec F S32x32 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32x16 .f32 := Host.absf main_arg5
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  let main_v24 : FVec F S32x32 .f32 := Host.absf main_arg6
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32x32 .f32 := Host.absf main_arg7
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg8 main_v33

def fn {F : FTy → Type} [FloatOps F] (main_arg0 : FVec F S100000x32 .f32) (main_arg1 : FVec F S1600000x16 .f32) (main_arg2 : FVec F S1600000x32 .f32) (main_arg3 : IVec S2x1600000 32) (main_arg4 : FVec F S32x32 .f32) (main_arg5 : FVec F S32x16 .f32) (main_arg6 : FVec F S32x32 .f32) (main_arg7 : FVec F S32x32 .f32) (main_arg8 : FVec F S32x32 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1600000x16 .f32 := Host.absf main_arg1
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S1600000x32 .f32 := Host.absf main_arg2
  let main_cst_2 : FVec F S_ .f32 := constant S_ .f32 0x7F800000#32
  let main_v10 : FVec F S1600000x32 .f32 := broadcastInDim S1600000x32 ![] bcast_S_S1600000x32 main_cst_2
  let main_v11 : IVec S1600000x32 1 := cmpf .olt main_v9 main_v10
  let main_c_3 : IVec S_ 1 := constantI S_ 1 1#1
  let main_v12 : IVec S_ 1 := (fun x v => Host.reduce IntOp.andi x v reducesTo_S1600000x32_S_d0_1 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg5 main_arg6 main_arg7 main_arg8 main_v13 main_v16
-- ==== Kernel.lean ====
abbrev S100000x32 : Shape := ⟨2, ![100000, 32]⟩
abbrev S1600000x16 : Shape := ⟨2, ![1600000, 16]⟩
abbrev S1600000x32 : Shape := ⟨2, ![1600000, 32]⟩
abbrev S2x1600000 : Shape := ⟨2, ![2, 1600000]⟩
abbrev S32x32 : Shape := ⟨2, ![32, 32]⟩
abbrev S32x16 : Shape := ⟨2, ![32, 16]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x80 : Shape := ⟨2, ![1600000, 80]⟩
abbrev S32x80 : Shape := ⟨2, ![32, 80]⟩
abbrev S80x32 : Shape := ⟨2, ![80, 32]⟩
abbrev S1600000x64 : Shape := ⟨2, ![1600000, 64]⟩
abbrev S8000x80 : Shape := ⟨2, ![8000, 80]⟩
abbrev S8000x64 : Shape := ⟨2, ![8000, 64]⟩
abbrev S8000x32 : Shape := ⟨2, ![8000, 32]⟩
abbrev S5000x32 : Shape := ⟨2, ![5000, 32]⟩

abbrev nBuf : Space → Nat
  | .hbm => 65
  | .vmem => 13
  | .smem => 0
  | _ => 0

abbrev bufTy : (tb : Table) → Fin (tcTables nBuf tb) → BufTy
  | .hbm, ⟨0, _⟩ => ⟨S100000x32, .f32⟩
  | .hbm, ⟨1, _⟩ => ⟨S1600000x16, .f32⟩
  | .hbm, ⟨2, _⟩ => ⟨S1600000x32, .f32⟩
  | .hbm, ⟨3, _⟩ => ⟨S2x1600000, .i32⟩
  | .hbm, ⟨4, _⟩ => ⟨S32x32, .f32⟩
  | .hbm, ⟨5, _⟩ => ⟨S32x16, .f32⟩
  | .hbm, ⟨6, _⟩ => ⟨S32x32, .f32⟩
  | .hbm, ⟨7, _⟩ => ⟨S32x32, .f32⟩
  | .hbm, ⟨8, _⟩ => ⟨S32x32, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S100000x32, .f32⟩
  | .hbm, ⟨15, _⟩ => ⟨S1600000x1, .i32⟩
  | .hbm, ⟨16, _⟩ => ⟨S100000x32, .f32⟩
  | .hbm, ⟨17, _⟩ => ⟨S_, .f32⟩
  | .hbm, ⟨18, _⟩ => ⟨S100000x32, .f32⟩
  | .hbm, ⟨19, _⟩ => ⟨S1600000x1, .i32⟩
  | .hbm, ⟨20, _⟩ => ⟨S100000x32, .f32⟩
  | .hbm, ⟨21, _⟩ => ⟨S100000x32, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x32, .f32⟩
  | .hbm, ⟨31, _⟩ => ⟨S1600000x32, .bf16⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x32, .f32⟩
  | .hbm, ⟨41, _⟩ => ⟨S1600000x32, .bf16⟩
  | .hbm, ⟨42, _⟩ => ⟨S1600000x16, .bf16⟩
  | .hbm, ⟨43, _⟩ => ⟨S1600000x80, .bf16⟩
  | .hbm, ⟨44, _⟩ => ⟨S32x80, .f32⟩
  | .hbm, ⟨45, _⟩ => ⟨S80x32, .f32⟩
  | .hbm, ⟨46, _⟩ => ⟨S80x32, .bf16⟩
  | .hbm, ⟨47, _⟩ => ⟨S32x32, .f32⟩
  | .hbm, ⟨48, _⟩ => ⟨S32x32, .bf16⟩
  | .hbm, ⟨49, _⟩ => ⟨S1600000x64, .f32⟩
  | .hbm, ⟨50, _⟩ => ⟨S1600000x32, .f32⟩
  | .hbm, ⟨51, _⟩ => ⟨S1600000x32, .f32⟩
  | .hbm, ⟨52, _⟩ => ⟨S_, .f32⟩
  | .hbm, ⟨53, _⟩ => ⟨S100000x32, .f32⟩
  | .hbm, ⟨54, _⟩ => ⟨S1600000x1, .i32⟩
  | .hbm, ⟨55, _⟩ => ⟨S100000x32, .f32⟩
  | .hbm, ⟨56, _⟩ => ⟨S_, .f32⟩
  | .hbm, ⟨57, _⟩ => ⟨S100000x32, .f32⟩
  | .hbm, ⟨58, _⟩ => ⟨S1600000x1, .i32⟩
  | .hbm, ⟨59, _⟩ => ⟨S100000x32, .f32⟩
  | .hbm, ⟨60, _⟩ => ⟨S100000x32, .f32⟩
  | .hbm, ⟨61, _⟩ => ⟨S100000x32, .bf16⟩
  | .hbm, ⟨62, _⟩ => ⟨S32x32, .f32⟩
  | .hbm, ⟨63, _⟩ => ⟨S32x32, .bf16⟩
  | .hbm, ⟨64, _⟩ => ⟨S100000x32, .f32⟩
  | .local _ .vmem, ⟨0, _⟩ => ⟨S8000x80, .bf16⟩
  | .local _ .vmem, ⟨1, _⟩ => ⟨S8000x80, .bf16⟩
  | .local _ .vmem, ⟨2, _⟩ => ⟨S80x32, .bf16⟩
  | .local _ .vmem, ⟨3, _⟩ => ⟨S32x32, .bf16⟩
  | .local _ .vmem, ⟨4, _⟩ => ⟨S8000x64, .f32⟩
  | .local _ .vmem, ⟨5, _⟩ => ⟨S8000x64, .f32⟩
  | .local _ .vmem, ⟨6, _⟩ => ⟨S5000x32, .bf16⟩
  | .local _ .vmem, ⟨7, _⟩ => ⟨S5000x32, .bf16⟩
  | .local _ .vmem, ⟨8, _⟩ => ⟨S5000x32, .f32⟩
  | .local _ .vmem, ⟨9, _⟩ => ⟨S5000x32, .f32⟩
  | .local _ .vmem, ⟨10, _⟩ => ⟨S32x32, .bf16⟩
  | .local _ .vmem, ⟨11, _⟩ => ⟨S5000x32, .f32⟩
  | .local _ .vmem, ⟨12, _⟩ => ⟨S5000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_4 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x80 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S80x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x32 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000x32 : S_.BroadcastsInDim S100000x32 (![] : Fin 0 → Fin S100000x32.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bitsLt_bf16_f32 : FTy.bits .bf16 < FTy.bits .f32
  concatenates_S1600000x32_S1600000x16_S1600000x32_S1600000x80_d1 : Shape.Concatenates [S1600000x32, S1600000x16, S1600000x32] S1600000x80 1
  concatenates_S32x32_S32x16_S32x32_S32x80_d1 : Shape.Concatenates [S32x32, S32x16, S32x32] S32x80 1
  transposes_S32x80_S80x32_1_0 : S32x80.Transposes [1, 0] S80x32
  transposes_S32x32_S32x32_1_0 : S32x32.Transposes [1, 0] S32x32
  inb_S8000x80_S8000x80_0_0 : ∀ a, (![0, 0] : Fin 2 → Nat) a + S8000x80.size a ≤ S8000x80.size a
  h_S8000x80 : 0 < S8000x80.numel
  shapeCasts_S8000x80_S8000x80 : S8000x80.ShapeCasts S8000x80
  inb_S80x32_S80x32_0_0 : ∀ a, (![0, 0] : Fin 2 → Nat) a + S80x32.size a ≤ S80x32.size a
  h_S80x32 : 0 < S80x32.numel
  shapeCasts_S80x32_S80x32 : S80x32.ShapeCasts S80x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  concatenates_S8000x32_S8000x32_S8000x64_d1 : Shape.Concatenates [S8000x32, S8000x32] S8000x64 1
  inb_S8000x64_S8000x64_0_0 : ∀ a, (![0, 0] : Fin 2 → Nat) a + S8000x64.size a ≤ S8000x64.size a
  h_S8000x64 : 0 < S8000x64.numel
  slices_S1600000x64_S1600000x32_0_0 : S1600000x64.Slices ![0, 0] S1600000x32
  slices_S1600000x64_S1600000x32_0_32 : S1600000x64.Slices ![0, 32] S1600000x32
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  scatter_S100000x32_S1600000x1_S1600000x32_1_0_0_1_wf : ScatterDims.WF S100000x32 S1600000x1 S1600000x32 [1] [0] [0] 1
  gather_S100000x32_S1600000x1_S1600000x32_1_0_n_n_0_1_132_wf : GatherDims.WF S100000x32 S1600000x1 S1600000x32 [1] [0] [] [0] [] 1 ![1, 32]
  dot_S8000x80_S80x32_S8000x32_1_0_0_1_n_n_wf : DotDims.WF S8000x80 S80x32 S8000x32 [1] [0] [0] [1] [] []
  dot_S8000x32_S32x32_S8000x32_1_0_0_1_n_n_wf : DotDims.WF S8000x32 S32x32 S8000x32 [1] [0] [0] [1] [] []
  dot_S5000x32_S32x32_S5000x32_1_0_0_1_n_n_wf : DotDims.WF S5000x32 S32x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x80.size a ≤ S1600000x80.size a
  hwx0_0 : ∀ i : grid0.Coords, EltTy.bits .bf16 = 32 ∨ (Rect.block (s := S1600000x80) S8000x80.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S80x32.size a ≤ S80x32.size a
  hwx0_1 : ∀ i : grid0.Coords, EltTy.bits .bf16 = 32 ∨ (Rect.block (s := S80x32) S80x32.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x32.size a ≤ S32x32.size a
  hwx0_2 : ∀ i : grid0.Coords, EltTy.bits .bf16 = 32 ∨ (Rect.block (s := S32x32) S32x32.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x64.size a ≤ S1600000x64.size a
  hwx0_3 : ∀ i : grid0.Coords, EltTy.bits .f32 = 32 ∨ (Rect.block (s := S1600000x64) S8000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .bf16 = 32 ∨ (Rect.block (s := S100000x32) S5000x32.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .bf16 = 32 ∨ (Rect.block (s := S32x32) S32x32.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x32.size a ≤ S100000x32.size a
  hwx1_3 : ∀ i : grid1.Coords, EltTy.bits .f32 = 32 ∨ (Rect.block (s := S100000x32) S5000x32.size (cc1_transform_3 i) (hinb1_3 i)).WholeWords (EltTy.packing .f32)

variable [Facts₀]

def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def dot_S8000x80_S80x32_S8000x32_1_0_0_1_n_n : DotDims S8000x80 S80x32 S8000x32 where
  lhsContracting := [1]
  rhsContracting := [0]
  lhsNonContracting := [0]
  rhsNonContracting := [1]
  lhsBatch := []
  rhsBatch := []
  wf := dot_S8000x80_S80x32_S8000x32_1_0_0_1_n_n_wf
def dot_S8000x32_S32x32_S8000x32_1_0_0_1_n_n : DotDims S8000x32 S32x32 S8000x32 where
  lhsContracting := [1]
  rhsContracting := [0]
  lhsNonContracting := [0]
  rhsNonContracting := [1]
  lhsBatch := []
  rhsBatch := []
  wf := dot_S8000x32_S32x32_S8000x32_1_0_0_1_n_n_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf

abbrev win0_0 : Pipeline.Window sig grid0 :=
  Pipeline.Window.ofSpec (Memref.whole main_v28) S8000x80.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S80x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S32x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S8000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v44) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x32 : Shape := ⟨2, ![100000, 32]⟩
abbrev S1600000x16 : Shape := ⟨2, ![1600000, 16]⟩
abbrev S1600000x32 : Shape := ⟨2, ![1600000, 32]⟩
abbrev S2x1600000 : Shape := ⟨2, ![2, 1600000]⟩
abbrev S32x32 : Shape := ⟨2, ![32, 32]⟩
abbrev S32x16 : Shape := ⟨2, ![32, 16]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S16x32 : Shape := ⟨2, ![16, 32]⟩

abbrev nBuf : Space → Nat
  | .hbm => 65
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S1600000x16, .f32⟩
  | .hbm, ⟨2, _⟩ => ⟨S1600000x32, .f32⟩
  | .hbm, ⟨3, _⟩ => ⟨S2x1600000, .i32⟩
  | .hbm, ⟨4, _⟩ => ⟨S32x32, .f32⟩
  | .hbm, ⟨5, _⟩ => ⟨S32x16, .f32⟩
  | .hbm, ⟨6, _⟩ => ⟨S32x32, .f32⟩
  | .hbm, ⟨7, _⟩ => ⟨S32x32, .f32⟩
  | .hbm, ⟨8, _⟩ => ⟨S32x32, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S100000x32, .f32⟩
  | .hbm, ⟨15, _⟩ => ⟨S1600000x1, .i32⟩
  | .hbm, ⟨16, _⟩ => ⟨S100000x32, .f32⟩
  | .hbm, ⟨17, _⟩ => ⟨S_, .f32⟩
  | .hbm, ⟨18, _⟩ => ⟨S100000x32, .f32⟩
  | .hbm, ⟨19, _⟩ => ⟨S1600000x1, .i32⟩
  | .hbm, ⟨20, _⟩ => ⟨S100000x32, .f32⟩
  | .hbm, ⟨21, _⟩ => ⟨S100000x32, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x32, .f32⟩
  | .hbm, ⟨31, _⟩ => ⟨S32x32, .f32⟩
  | .hbm, ⟨32, _⟩ => ⟨S1600000x32, .f32⟩
  | .hbm, ⟨33, _⟩ => ⟨S16x32, .f32⟩
  | .hbm, ⟨34, _⟩ => ⟨S1600000x32, .f32⟩
  | .hbm, ⟨35, _⟩ => ⟨S1600000x32, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x32, .f32⟩
  | .hbm, ⟨45, _⟩ => ⟨S32x32, .f32⟩
  | .hbm, ⟨46, _⟩ => ⟨S1600000x32, .f32⟩
  | .hbm, ⟨47, _⟩ => ⟨S1600000x32, .f32⟩
  | .hbm, ⟨48, _⟩ => ⟨S_, .f32⟩
  | .hbm, ⟨49, _⟩ => ⟨S1600000x32, .f32⟩
  | .hbm, ⟨50, _⟩ => ⟨S1600000x32, .f32⟩
  | .hbm, ⟨51, _⟩ => ⟨S32x32, .f32⟩
  | .hbm, ⟨52, _⟩ => ⟨S1600000x32, .f32⟩
  | .hbm, ⟨53, _⟩ => ⟨S32x32, .f32⟩
  | .hbm, ⟨54, _⟩ => ⟨S100000x32, .f32⟩
  | .hbm, ⟨55, _⟩ => ⟨S_, .f32⟩
  | .hbm, ⟨56, _⟩ => ⟨S100000x32, .f32⟩
  | .hbm, ⟨57, _⟩ => ⟨S1600000x1, .i32⟩
  | .hbm, ⟨58, _⟩ => ⟨S100000x32, .f32⟩
  | .hbm, ⟨59, _⟩ => ⟨S_, .f32⟩
  | .hbm, ⟨60, _⟩ => ⟨S100000x32, .f32⟩
  | .hbm, ⟨61, _⟩ => ⟨S1600000x1, .i32⟩
  | .hbm, ⟨62, _⟩ => ⟨S100000x32, .f32⟩
  | .hbm, ⟨63, _⟩ => ⟨S100000x32, .f32⟩
  | .hbm, ⟨64, _⟩ => ⟨S100000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_2 : Ref sig .tc := ⟨.hbm, 36, rfl⟩
abbrev main_v23 : Ref sig .tc := ⟨.hbm, 37, rfl⟩
abbrev main_v24 : Ref sig .tc := ⟨.hbm, 38, rfl⟩
abbrev main_c_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_cst : Ref sig .tc := ⟨.hbm, 48, rfl⟩
abbrev main_call0_v0 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_4 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_5 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000x32 : S_.BroadcastsInDim S100000x32 (![] : Fin 0 → Fin S100000x32.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  transposes_S32x32_S32x32_1_0 : S32x32.Transposes [1, 0] S32x32
  transposes_S32x16_S16x32_1_0 : S32x16.Transposes [1, 0] S16x32
  bcast_S_S1600000x32 : S_.BroadcastsInDim S1600000x32 (![] : Fin 0 → Fin S1600000x32.rank)
  scatter_S100000x32_S1600000x1_S1600000x32_1_0_0_1_wf : ScatterDims.WF S100000x32 S1600000x1 S1600000x32 [1] [0] [0] 1
  gather_S100000x32_S1600000x1_S1600000x32_1_0_n_n_0_1_132_wf : GatherDims.WF S100000x32 S1600000x1 S1600000x32 [1] [0] [] [0] [] 1 ![1, 32]
  dot_S1600000x32_S32x32_S1600000x32_1_0_0_1_n_n_wf : DotDims.WF S1600000x32 S32x32 S1600000x32 [1] [0] [0] [1] [] []
  dot_S1600000x16_S16x32_S1600000x32_1_0_0_1_n_n_wf : DotDims.WF S1600000x16 S16x32 S1600000x32 [1] [0] [0] [1] [] []
  dot_S100000x32_S32x32_S100000x32_1_0_0_1_n_n_wf : DotDims.WF S100000x32 S32x32 S100000x32 [1] [0] [0] [1] [] []

variable [Facts₀]

def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def dot_S1600000x32_S32x32_S1600000x32_1_0_0_1_n_n : DotDims S1600000x32 S32x32 S1600000x32 where
  lhsContracting := [1]
  rhsContracting := [0]
  lhsNonContracting := [0]
  rhsNonContracting := [1]
  lhsBatch := []
  rhsBatch := []
  wf := dot_S1600000x32_S32x32_S1600000x32_1_0_0_1_n_n_wf
def dot_S1600000x16_S16x32_S1600000x32_1_0_0_1_n_n : DotDims S1600000x16 S16x32 S1600000x32 where
  lhsContracting := [1]
  rhsContracting := [0]
  lhsNonContracting := [0]
  rhsNonContracting := [1]
  lhsBatch := []
  rhsBatch := []
  wf := dot_S1600000x16_S16x32_S1600000x32_1_0_0_1_n_n_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf

class Facts : Prop extends Facts₀ where

variable [Facts]
-- ==== Proof.EdgeRegionB.lean ====
/-
  The edge stage (the first of the two kernel regions) on one TensorCore, at any contents `V` of the core's buffers
  when the region is entered.

  The region walks 200 grid points; at point t it stages rows 8000·t .. 8000·t + 7999 of the edge matrix (80 columns),
  the whole 80 × 32 weight matrix and the whole 32 × 32 projection matrix, runs the body, and writes the body's
  8000 × 64 result back to the same rows of the result array. The body reads its three input buffers whole and
  overwrites its output buffer whole with ONE value, a pure function of the three inputs; so after the body the output
  buffer holds that function of the point's input blocks, whatever it held before, and the inputs are as they were.
  That is all the pipeline needs of the body: the proof data below name each buffer's contents after the body at
  every point, and the body's triple shows the body meets them.
-/
import proofs.«126725_j31877247271019_1_alg».proof.Proof.Gen.Kernel.Launch
import proofs.«126725_j31877247271019_1_alg».proof.Proof.Gen.Kernel.Skeleton
import proofs.«126725_j31877247271019_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The edge rows' buffer holds the point's block whenever the body is called: the block is fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix's buffer holds the whole matrix at every point: fetched at the first point, and the body
    leaves it in place, so at a later point the buffer still holds the (same) block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same for the projection matrix. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rX0 : Rect S8000x80 := Rect.unit (s := S8000x80) ![0, 0] S8000x80.size inb_S8000x80_S8000x80_0_0
abbrev rW0 : Rect S80x32 := Rect.unit (s := S80x32) ![0, 0] S80x32.size inb_S80x32_S80x32_0_0
abbrev rU0 : Rect S32x32 := Rect.unit (s := S32x32) ![0, 0] S32x32.size inb_S32x32_S32x32_0_0
abbrev rO0 : Rect S8000x64 := Rect.unit (s := S8000x64) ![0, 0] S8000x64.size inb_S8000x64_S8000x64_0_0

/-! ## What the body leaves in the output buffer -/

/-- The output buffer after the body, from the three input blocks: its one store, of the body's one value. -/
def out0_3 (x0 : Vec F S8000x80 .bf16) (x1 : Vec F S80x32 .bf16) (x2 : Vec F S32x32 .bf16) : Vec F S8000x64 .f32 :=
  View.canon [⟨rO0, k0_pay1 (View.ld x0 rX0) (View.ld x1 rW0) (View.ld x2 rU0)⟩]

/-- The one store covers the buffer. -/
theorem cover0_3 (p0 : Vec F S8000x64 .f32) (y : S8000x64.Idx) :
    ∃ pc ∈ ([⟨rO0, p0⟩] : List (View.Piece (Elt F) S8000x64 .f32)), y ∈ pc.1.set :=
  View.cover_of_tiled [⟨rO0, p0⟩] S8000x64.size (by rfl) y

/-! ## The body's triple -/

set_option maxHeartbeats 1000000 in
/-- The body on whole staging buffers, the inputs' at contents `x0`, `x1`, `x2` and the output's at anything, runs to
    the continuation holding the inputs' as they were and the output's at `out0_3` of them. -/
theorem sound_kernel0 (c : Dev nD) (E : Set ℕ) (i : grid0.Coords)
    (arg1 : Memref sig .tc .vmem S8000x80 .bf16) (harg1 : arg1.IsWhole) (arg2 : Memref sig .tc .vmem S80x32 .bf16) (harg2 : arg2.IsWhole)
    (arg3 : Memref sig .tc .vmem S32x32 .bf16) (harg3 : arg3.IsWhole) (arg4 : Memref sig .tc .vmem S8000x64 .f32) (harg4 : arg4.IsWhole)
    (x0 : Vec F S8000x80 .bf16) (x1 : Vec F S80x32 .bf16) (x2 : Vec F S32x32 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__edge_kernel i arg1 harg1 arg2 harg2 arg3 harg3 arg4 harg4) K := by
  simp only [cc0__edge_kernel_eq_skeleton]; unfold cc0__edge_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The region's proof data on core `c`: the arrays as the region finds them; after the body at point `t` each input
    buffer at its block and the output buffer at `out0_3` of the input blocks; nothing else held, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so the body's triple applies; the rest passes through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.NodeRegionB.lean ====
/-
  The node stage (the second of the two kernel regions) on one TensorCore, at any contents `V` of the core's buffers
  when the region is entered.

  The region walks 20 grid points; at point t it stages rows 5000·t .. 5000·t + 4999 of the node features (32 columns)
  and of the summed messages (32 columns), and the whole 32 × 32 matrix, runs the body, and writes the body's
  5000 × 32 result back to the same rows of the result array. The body reads its three input buffers whole and
  overwrites its output buffer whole with one value, a pure function of the three inputs.
-/
import proofs.«126725_j31877247271019_1_alg».proof.Proof.Gen.Kernel.Launch
import proofs.«126725_j31877247271019_1_alg».proof.Proof.Gen.Kernel.Skeleton
import proofs.«126725_j31877247271019_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The node rows' buffer holds the point's block whenever the body is called: the block is fetched at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The summed messages' buffer holds the point's block whenever the body is called: fetched at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The matrix's buffer holds the whole matrix at every point: fetched at the first point, and the body leaves it in
    place, so at a later point the buffer still holds the (same) block. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev rX1 : Rect S5000x32 := Rect.unit (s := S5000x32) ![0, 0] S5000x32.size inb_S5000x32_S5000x32_0_0
abbrev rI1 : Rect S5000x32 := Rect.unit (s := S5000x32) ![0, 0] S5000x32.size inb_S5000x32_S5000x32_0_0
abbrev rU1 : Rect S32x32 := Rect.unit (s := S32x32) ![0, 0] S32x32.size inb_S32x32_S32x32_0_0
abbrev rO1 : Rect S5000x32 := Rect.unit (s := S5000x32) ![0, 0] S5000x32.size inb_S5000x32_S5000x32_0_0

/-! ## What the body leaves in the output buffer -/

/-- The output buffer after the body, from the three input blocks: its one store, of the body's one value. -/
def out1_3 (x0 : Vec F S5000x32 .bf16) (x1 : Vec F S5000x32 .f32) (x2 : Vec F S32x32 .bf16) : Vec F S5000x32 .f32 :=
  View.canon [⟨rO1, k1_pay1 (View.ld x0 rX1) (View.ld x1 rI1) (View.ld x2 rU1)⟩]

/-- The one store covers the buffer. -/
theorem cover1_3 (p0 : Vec F S5000x32 .f32) (y : S5000x32.Idx) :
    ∃ pc ∈ ([⟨rO1, p0⟩] : List (View.Piece (Elt F) S5000x32 .f32)), y ∈ pc.1.set :=
  View.cover_of_tiled [⟨rO1, p0⟩] S5000x32.size (by rfl) y

/-! ## The body's triple -/

set_option maxHeartbeats 1000000 in
/-- The body on whole staging buffers, the inputs' at contents `x0`, `x1`, `x2` and the output's at anything, runs to
    the continuation holding the inputs' as they were and the output's at `out1_3` of them. -/
theorem sound_kernel1 (c : Dev nD) (E : Set ℕ) (i : grid1.Coords)
    (arg1 : Memref sig .tc .vmem S5000x32 .bf16) (harg1 : arg1.IsWhole) (arg2 : Memref sig .tc .vmem S5000x32 .f32) (harg2 : arg2.IsWhole)
    (arg3 : Memref sig .tc .vmem S32x32 .bf16) (harg3 : arg3.IsWhole) (arg4 : Memref sig .tc .vmem S5000x32 .f32) (harg4 : arg4.IsWhole)
    (x0 : Vec F S5000x32 .bf16) (x1 : Vec F S5000x32 .f32) (x2 : Vec F S32x32 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__node_kernel i arg1 harg1 arg2 harg2 arg3 harg3 arg4 harg4) K := by
  simp only [cc1__node_kernel_eq_skeleton]; unfold cc1__node_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The region's proof data on core `c`: the arrays as the region finds them; after the body at point `t` each input
    buffer at its block and the output buffer at `out1_3` of the input blocks; nothing else held, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the input buffers hold their blocks, so the body's triple applies; the rest passes through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Frm

end
-- ==== Proof.MainRunB.lean ====
/-
  The whole program on the TensorCores: a stretch of host operations, the edge stage, a second stretch of host
  operations, the node stage.

  Between two items a core holds every buffer that outlives the regions at known contents: at launch the memory
  `m`; after a host stretch, the stretch's operations applied in order; after a kernel region, the same contents
  except that the region's result array holds what the pipeline's write-backs left (its input arrays are as they
  were). Each region is entered by splitting its four arrays off those buffers and left by putting them back; the
  staging buffers and semaphores are the pipeline's own. Running the four items in order from the launch gives a final
  memory that agrees with the last of these contents on every such buffer. No host operation writes an argument and
  no region's window is an argument's array, so every argument ends as launched.
-/
import proofs.«126725_j31877247271019_1_alg».proof.Proof.EdgeRegionB
import proofs.«126725_j31877247271019_1_alg».proof.Proof.NodeRegionB
import proofs.«126725_j31877247271019_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev W0 : Dev nD → Valuation τ sig (Elt F) := fun c b => m (c, b)
/-- After the first host stretch: the edge stage's entry contents. -/
abbrev W1 : Dev nD → Valuation τ sig (Elt F) := fun c => StableHlo.after hostOps0 (W0 m c)
/-- The same, read at the TensorCore's references. -/
abbrev Vin0 : (c : Dev nD) → (b : Ref sig .tc) → Buf (Elt F) ((c : Thread nD τ).loc b) := fun c b => W1 m c b
/-- At the edge stage's exit: its arrays at what the pipeline leaves, every other buffer as entered. -/
def W2 (c : Dev nD) : Valuation τ sig (Elt F) :=
  Pipeline.withArrays spec0 c (W1 m c) fun w => (dat0 (Vin0 m) c).arrAt w cfg0.N
theorem W2_arr (c : Dev nD) (w : Fin cfg0.W) :
    W2 m c (Proc.devRef .tc (Pipeline.arrRef spec0 w)) = (dat0 (Vin0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev Vout0 : (c : Dev nD) → (b : Ref sig .tc) → Buf (Elt F) ((c : Thread nD τ).loc b) := fun c b => W2 m c b
theorem hF0 (c : Dev nD) (w : Fin cfg0.W) : (dat0 (Vin0 m) c).arrAt w cfg0.N = Vout0 m c (Pipeline.arrRef spec0 w) :=
  (W2_arr m c w).symm
theorem hrest0 (c : Dev nD) : ∀ b, b ∉ Finset.univ.image (Pipeline.arrRef spec0) → Vout0 m c b = Vin0 m c b :=
  fun b hb => W2_of_ne m c b fun w e => hb (Finset.mem_image.mpr ⟨w, Finset.mem_univ _, e⟩)

/-- After the second host stretch: the node stage's entry contents. -/
abbrev W3 : Dev nD → Valuation τ sig (Elt F) := fun c => StableHlo.after hostOps1 (W2 m c)
abbrev Vin1 : (c : Dev nD) → (b : Ref sig .tc) → Buf (Elt F) ((c : Thread nD τ).loc b) := fun c b => W3 m c b
/-- At the node stage's exit. -/
def W4 (c : Dev nD) : Valuation τ sig (Elt F) :=
  Pipeline.withArrays spec1 c (W3 m c) fun w => (dat1 (Vin1 m) c).arrAt w cfg1.N
theorem W4_arr (c : Dev nD) (w : Fin cfg1.W) :
    W4 m c (Proc.devRef .tc (Pipeline.arrRef spec1 w)) = (dat1 (Vin1 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev Vout1 : (c : Dev nD) → (b : Ref sig .tc) → Buf (Elt F) ((c : Thread nD τ).loc b) := fun c b => W4 m c b
theorem hF1 (c : Dev nD) (w : Fin cfg1.W) : (dat1 (Vin1 m) c).arrAt w cfg1.N = Vout1 m c (Pipeline.arrRef spec1 w) :=
  (W4_arr m c w).symm
theorem hrest1 (c : Dev nD) : ∀ b, b ∉ Finset.univ.image (Pipeline.arrRef spec1) → Vout1 m c b = Vin1 m c b :=
  fun b hb => W4_of_ne m c b fun w e => hb (Finset.mem_image.mpr ⟨w, Finset.mem_univ _, e⟩)

/-- A buffer that no host operation writes and that is no window's array ends as launched. -/
theorem W4_kept (c : Dev nD) (b : Ref sig .tc) (h0 : b ∉ hostOps0_W) (h1 : b ∉ hostOps1_W)
    (h2 : ∀ w, Pipeline.arrRef spec0 w ≠ b) (h3 : ∀ w, Pipeline.arrRef spec1 w ≠ b) :
    W4 m c (Proc.devRef .tc b) = m ((c : Thread nD τ).loc b) :=
  calc W4 m c (Proc.devRef .tc b)
    _ = W3 m c (Proc.devRef .tc b) := W4_of_ne m c b h3
    _ = W2 m c (Proc.devRef .tc b) := StableHlo.after_of_writes_sub hostOps1 _ hostOps1_writes h1
    _ = W1 m c (Proc.devRef .tc b) := W2_of_ne m c b h2
    _ = W0 m c (Proc.devRef .tc b) := StableHlo.after_of_writes_sub hostOps0 _ hostOps0_writes h0
    _ = m ((c : Thread nD τ).loc b) := rfl

/-! ## The proof data family and the thread state -/

abbrev adm' : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm' p) c
  | ⟨0, _⟩ => fun c => dat0 (Vin0 m) c
  | ⟨1, _⟩ => fun c => dat1 (Vin1 m) c
abbrev 𝒱₀ : Variants := Variants.none
abbrev Lz : GSem nD τ sig → Finset Unit := fun _ => ∅
abbrev lvz : GSem nD τ sig → Unit → ℕ := fun _ _ => 0
/-- What rides beside the buffers through every item: the generator register at some state, and nothing owed. -/
abbrev Rest (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The edge stage: entered from every such buffer at `W1`, left at `W2`. -/
def reg0 : Pipeline.RegionSeg (pcfgs (F := F)) adm' (pdats m) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ Lz lvz 0 fun _ _ => rfl
  pre c := iprop(StableHlo.held (c : Thread nD τ) (Pipeline.ucRefs τ sig) (W1 m c) ∗ Rest c)
  post c := iprop(StableHlo.held (c : Thread nD τ) (Pipeline.ucRefs τ sig) (W2 m c) ∗ Rest c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (Vin0 m c) (Vout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The node stage: entered from every such buffer at `W3`, left at `W4`. -/
def reg1 : Pipeline.RegionSeg (pcfgs (F := F)) adm' (pdats m) () defs₀ 𝒱₀ Lz lvz 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ Lz lvz 1 fun _ _ => rfl
  pre c := iprop(StableHlo.held (c : Thread nD τ) (Pipeline.ucRefs τ sig) (W3 m c) ∗ Rest c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (Vin1 m c) (Vout1 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The four items, and the launch -/

abbrev segs : List (Pipeline.Seg (pcfgs (F := F)) adm' (pdats m) () defs₀ 𝒱₀ Lz lvz) :=
  [ .host (hseg hostOps0 hostOps0_sub hostOps0_fresh (W0 m)),
    .region (reg0 m),
    .host (hseg hostOps1 hostOps1_sub hostOps1_fresh (W2 m)),
    .region (reg1 m) ]

/-- The program is the run of the four items. -/
theorem main_run (c : Dev nD) : main (F := F) c = Pipeline.Seg.run (segs m) := by
  rw [main_chain c, Pipeline.Seg.run_eq_chain]; rfl

set_option backward.isDefEq.respectTransparency.types false in
/-- From any memory with zero counters, every weakly fair execution of the program on the TensorCores terminates,
    nothing faulting, in a memory that agrees with `W4` on every buffer that outlives the regions. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W4 m c b) :=
  Pipeline.θ_run_regions_kit (pcfgs (F := F)) adm' (pdats m) () cellOf_inj emb₁ defs₀ 𝒱₀ Lz lvz m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rest c)) (Tₙ := Tend m)
    (hch := ⟨fun _ => .rfl, fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W4_kept m c main_arg0 (by decide) (by decide) (by decide) (by decide)),
     (h c _ (mem_uc main_arg1 (by decide))).trans (W4_kept m c main_arg1 (by decide) (by decide) (by decide) (by decide)),
     (h c _ (mem_uc main_arg2 (by decide))).trans (W4_kept m c main_arg2 (by decide) (by decide) (by decide) (by decide)),
     (h c _ (mem_uc main_arg3 (by decide))).trans (W4_kept m c main_arg3 (by decide) (by decide) (by decide) (by decide)),
     (h c _ (mem_uc main_arg4 (by decide))).trans (W4_kept m c main_arg4 (by decide) (by decide) (by decide) (by decide)),
     (h c _ (mem_uc main_arg5 (by decide))).trans (W4_kept m c main_arg5 (by decide) (by decide) (by decide) (by decide)),
     (h c _ (mem_uc main_arg6 (by decide))).trans (W4_kept m c main_arg6 (by decide) (by decide) (by decide) (by decide)),
     (h c _ (mem_uc main_arg7 (by decide))).trans (W4_kept m c main_arg7 (by decide) (by decide) (by decide) (by decide)),
     (h c _ (mem_uc main_arg8 (by decide))).trans (W4_kept m c main_arg8 (by decide) (by decide) (by decide) (by decide))⟩)
    (run_all m ρ)

end Cert.Kernel.Frm

end
-- ==== Proof.EdgeRegionI.lean ====
/-
  The edge stage (the first of the two kernel regions) on one TensorCore, at any contents `V` of the core's buffers
  when the region is entered.

  The region walks 200 grid points; at point t it stages rows 8000·t .. 8000·t + 7999 of the edge matrix (80 columns),
  the whole 80 × 32 weight matrix and the whole 32 × 32 projection matrix, runs the body, and writes the body's
  8000 × 64 result back to the same rows of the result array. The body reads its three input buffers whole and
  overwrites its output buffer whole with ONE value, a pure function of the three inputs; so after the body the output
  buffer holds that function of the point's input blocks, whatever it held before, and the inputs are as they were.
  That is all the pipeline needs of the body: the proof data below name each buffer's contents after the body at
  every point, and the body's triple shows the body meets them.
-/
import proofs.«126725_j31877247271019_1_alg».proof.Proof.Gen.KernelIdeal.Launch
import proofs.«126725_j31877247271019_1_alg».proof.Proof.Gen.KernelIdeal.Skeleton
import proofs.«126725_j31877247271019_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The edge rows' buffer holds the point's block whenever the body is called: the block is fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix's buffer holds the whole matrix at every point: fetched at the first point, and the body
    leaves it in place, so at a later point the buffer still holds the (same) block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same for the projection matrix. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rX0 : Rect S8000x80 := Rect.unit (s := S8000x80) ![0, 0] S8000x80.size inb_S8000x80_S8000x80_0_0
abbrev rW0 : Rect S80x32 := Rect.unit (s := S80x32) ![0, 0] S80x32.size inb_S80x32_S80x32_0_0
abbrev rU0 : Rect S32x32 := Rect.unit (s := S32x32) ![0, 0] S32x32.size inb_S32x32_S32x32_0_0
abbrev rO0 : Rect S8000x64 := Rect.unit (s := S8000x64) ![0, 0] S8000x64.size inb_S8000x64_S8000x64_0_0

/-! ## What the body leaves in the output buffer -/

/-- The output buffer after the body, from the three input blocks: its one store, of the body's one value. -/
def out0_3 (x0 : Vec F S8000x80 .bf16) (x1 : Vec F S80x32 .bf16) (x2 : Vec F S32x32 .bf16) : Vec F S8000x64 .f32 :=
  View.canon [⟨rO0, k0_pay1 (View.ld x0 rX0) (View.ld x1 rW0) (View.ld x2 rU0)⟩]

/-- The one store covers the buffer. -/
theorem cover0_3 (p0 : Vec F S8000x64 .f32) (y : S8000x64.Idx) :
    ∃ pc ∈ ([⟨rO0, p0⟩] : List (View.Piece (Elt F) S8000x64 .f32)), y ∈ pc.1.set :=
  View.cover_of_tiled [⟨rO0, p0⟩] S8000x64.size (by rfl) y

/-! ## The body's triple -/

set_option maxHeartbeats 1000000 in
/-- The body on whole staging buffers, the inputs' at contents `x0`, `x1`, `x2` and the output's at anything, runs to
    the continuation holding the inputs' as they were and the output's at `out0_3` of them. -/
theorem sound_kernel0 (c : Dev nD) (E : Set ℕ) (i : grid0.Coords)
    (arg1 : Memref sig .tc .vmem S8000x80 .bf16) (harg1 : arg1.IsWhole) (arg2 : Memref sig .tc .vmem S80x32 .bf16) (harg2 : arg2.IsWhole)
    (arg3 : Memref sig .tc .vmem S32x32 .bf16) (harg3 : arg3.IsWhole) (arg4 : Memref sig .tc .vmem S8000x64 .f32) (harg4 : arg4.IsWhole)
    (x0 : Vec F S8000x80 .bf16) (x1 : Vec F S80x32 .bf16) (x2 : Vec F S32x32 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__edge_kernel i arg1 harg1 arg2 harg2 arg3 harg3 arg4 harg4) K := by
  simp only [cc0__edge_kernel_eq_skeleton]; unfold cc0__edge_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The region's proof data on core `c`: the arrays as the region finds them; after the body at point `t` each input
    buffer at its block and the output buffer at `out0_3` of the input blocks; nothing else held, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so the body's triple applies; the rest passes through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.NodeRegionI.lean ====
/-
  The node stage (the second of the two kernel regions) on one TensorCore, at any contents `V` of the core's buffers
  when the region is entered.

  The region walks 20 grid points; at point t it stages rows 5000·t .. 5000·t + 4999 of the node features (32 columns)
  and of the summed messages (32 columns), and the whole 32 × 32 matrix, runs the body, and writes the body's
  5000 × 32 result back to the same rows of the result array. The body reads its three input buffers whole and
  overwrites its output buffer whole with one value, a pure function of the three inputs.
-/
import proofs.«126725_j31877247271019_1_alg».proof.Proof.Gen.KernelIdeal.Launch
import proofs.«126725_j31877247271019_1_alg».proof.Proof.Gen.KernelIdeal.Skeleton
import proofs.«126725_j31877247271019_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The node rows' buffer holds the point's block whenever the body is called: the block is fetched at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The summed messages' buffer holds the point's block whenever the body is called: fetched at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The matrix's buffer holds the whole matrix at every point: fetched at the first point, and the body leaves it in
    place, so at a later point the buffer still holds the (same) block. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev rX1 : Rect S5000x32 := Rect.unit (s := S5000x32) ![0, 0] S5000x32.size inb_S5000x32_S5000x32_0_0
abbrev rI1 : Rect S5000x32 := Rect.unit (s := S5000x32) ![0, 0] S5000x32.size inb_S5000x32_S5000x32_0_0
abbrev rU1 : Rect S32x32 := Rect.unit (s := S32x32) ![0, 0] S32x32.size inb_S32x32_S32x32_0_0
abbrev rO1 : Rect S5000x32 := Rect.unit (s := S5000x32) ![0, 0] S5000x32.size inb_S5000x32_S5000x32_0_0

/-! ## What the body leaves in the output buffer -/

/-- The output buffer after the body, from the three input blocks: its one store, of the body's one value. -/
def out1_3 (x0 : Vec F S5000x32 .bf16) (x1 : Vec F S5000x32 .f32) (x2 : Vec F S32x32 .bf16) : Vec F S5000x32 .f32 :=
  View.canon [⟨rO1, k1_pay1 (View.ld x0 rX1) (View.ld x1 rI1) (View.ld x2 rU1)⟩]

/-- The one store covers the buffer. -/
theorem cover1_3 (p0 : Vec F S5000x32 .f32) (y : S5000x32.Idx) :
    ∃ pc ∈ ([⟨rO1, p0⟩] : List (View.Piece (Elt F) S5000x32 .f32)), y ∈ pc.1.set :=
  View.cover_of_tiled [⟨rO1, p0⟩] S5000x32.size (by rfl) y

/-! ## The body's triple -/

set_option maxHeartbeats 1000000 in
/-- The body on whole staging buffers, the inputs' at contents `x0`, `x1`, `x2` and the output's at anything, runs to
    the continuation holding the inputs' as they were and the output's at `out1_3` of them. -/
theorem sound_kernel1 (c : Dev nD) (E : Set ℕ) (i : grid1.Coords)
    (arg1 : Memref sig .tc .vmem S5000x32 .bf16) (harg1 : arg1.IsWhole) (arg2 : Memref sig .tc .vmem S5000x32 .f32) (harg2 : arg2.IsWhole)
    (arg3 : Memref sig .tc .vmem S32x32 .bf16) (harg3 : arg3.IsWhole) (arg4 : Memref sig .tc .vmem S5000x32 .f32) (harg4 : arg4.IsWhole)
    (x0 : Vec F S5000x32 .bf16) (x1 : Vec F S5000x32 .f32) (x2 : Vec F S32x32 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__node_kernel i arg1 harg1 arg2 harg2 arg3 harg3 arg4 harg4) K := by
  simp only [cc1__node_kernel_eq_skeleton]; unfold cc1__node_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The region's proof data on core `c`: the arrays as the region finds them; after the body at point `t` each input
    buffer at its block and the output buffer at `out1_3` of the input blocks; nothing else held, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the input buffers hold their blocks, so the body's triple applies; the rest passes through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frm

end
-- ==== Proof.MainRunI.lean ====
/-
  The whole program on the TensorCores: a stretch of host operations, the edge stage, a second stretch of host
  operations, the node stage.

  Between two items a core holds every buffer that outlives the regions at known contents: at launch the memory
  `m`; after a host stretch, the stretch's operations applied in order; after a kernel region, the same contents
  except that the region's result array holds what the pipeline's write-backs left (its input arrays are as they
  were). Each region is entered by splitting its four arrays off those buffers and left by putting them back; the
  staging buffers and semaphores are the pipeline's own. Running the four items in order from the launch gives a final
  memory that agrees with the last of these contents on every such buffer. No host operation writes an argument and
  no region's window is an argument's array, so every argument ends as launched.
-/
import proofs.«126725_j31877247271019_1_alg».proof.Proof.EdgeRegionI
import proofs.«126725_j31877247271019_1_alg».proof.Proof.NodeRegionI
import proofs.«126725_j31877247271019_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev W0 : Dev nD → Valuation τ sig (Elt F) := fun c b => m (c, b)
/-- After the first host stretch: the edge stage's entry contents. -/
abbrev W1 : Dev nD → Valuation τ sig (Elt F) := fun c => StableHlo.after hostOps0 (W0 m c)
/-- The same, read at the TensorCore's references. -/
abbrev Vin0 : (c : Dev nD) → (b : Ref sig .tc) → Buf (Elt F) ((c : Thread nD τ).loc b) := fun c b => W1 m c b
/-- At the edge stage's exit: its arrays at what the pipeline leaves, every other buffer as entered. -/
def W2 (c : Dev nD) : Valuation τ sig (Elt F) :=
  Pipeline.withArrays spec0 c (W1 m c) fun w => (dat0 (Vin0 m) c).arrAt w cfg0.N
theorem W2_arr (c : Dev nD) (w : Fin cfg0.W) :
    W2 m c (Proc.devRef .tc (Pipeline.arrRef spec0 w)) = (dat0 (Vin0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev Vout0 : (c : Dev nD) → (b : Ref sig .tc) → Buf (Elt F) ((c : Thread nD τ).loc b) := fun c b => W2 m c b
theorem hF0 (c : Dev nD) (w : Fin cfg0.W) : (dat0 (Vin0 m) c).arrAt w cfg0.N = Vout0 m c (Pipeline.arrRef spec0 w) :=
  (W2_arr m c w).symm
theorem hrest0 (c : Dev nD) : ∀ b, b ∉ Finset.univ.image (Pipeline.arrRef spec0) → Vout0 m c b = Vin0 m c b :=
  fun b hb => W2_of_ne m c b fun w e => hb (Finset.mem_image.mpr ⟨w, Finset.mem_univ _, e⟩)

/-- After the second host stretch: the node stage's entry contents. -/
abbrev W3 : Dev nD → Valuation τ sig (Elt F) := fun c => StableHlo.after hostOps1 (W2 m c)
abbrev Vin1 : (c : Dev nD) → (b : Ref sig .tc) → Buf (Elt F) ((c : Thread nD τ).loc b) := fun c b => W3 m c b
/-- At the node stage's exit. -/
def W4 (c : Dev nD) : Valuation τ sig (Elt F) :=
  Pipeline.withArrays spec1 c (W3 m c) fun w => (dat1 (Vin1 m) c).arrAt w cfg1.N
theorem W4_arr (c : Dev nD) (w : Fin cfg1.W) :
    W4 m c (Proc.devRef .tc (Pipeline.arrRef spec1 w)) = (dat1 (Vin1 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev Vout1 : (c : Dev nD) → (b : Ref sig .tc) → Buf (Elt F) ((c : Thread nD τ).loc b) := fun c b => W4 m c b
theorem hF1 (c : Dev nD) (w : Fin cfg1.W) : (dat1 (Vin1 m) c).arrAt w cfg1.N = Vout1 m c (Pipeline.arrRef spec1 w) :=
  (W4_arr m c w).symm
theorem hrest1 (c : Dev nD) : ∀ b, b ∉ Finset.univ.image (Pipeline.arrRef spec1) → Vout1 m c b = Vin1 m c b :=
  fun b hb => W4_of_ne m c b fun w e => hb (Finset.mem_image.mpr ⟨w, Finset.mem_univ _, e⟩)

/-- A buffer that no host operation writes and that is no window's array ends as launched. -/
theorem W4_kept (c : Dev nD) (b : Ref sig .tc) (h0 : b ∉ hostOps0_W) (h1 : b ∉ hostOps1_W)
    (h2 : ∀ w, Pipeline.arrRef spec0 w ≠ b) (h3 : ∀ w, Pipeline.arrRef spec1 w ≠ b) :
    W4 m c (Proc.devRef .tc b) = m ((c : Thread nD τ).loc b) :=
  calc W4 m c (Proc.devRef .tc b)
    _ = W3 m c (Proc.devRef .tc b) := W4_of_ne m c b h3
    _ = W2 m c (Proc.devRef .tc b) := StableHlo.after_of_writes_sub hostOps1 _ hostOps1_writes h1
    _ = W1 m c (Proc.devRef .tc b) := W2_of_ne m c b h2
    _ = W0 m c (Proc.devRef .tc b) := StableHlo.after_of_writes_sub hostOps0 _ hostOps0_writes h0
    _ = m ((c : Thread nD τ).loc b) := rfl

/-! ## The proof data family and the thread state -/

abbrev adm' : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm' p) c
  | ⟨0, _⟩ => fun c => dat0 (Vin0 m) c
  | ⟨1, _⟩ => fun c => dat1 (Vin1 m) c
abbrev 𝒱₀ : Variants := Variants.none
abbrev Lz : GSem nD τ sig → Finset Unit := fun _ => ∅
abbrev lvz : GSem nD τ sig → Unit → ℕ := fun _ _ => 0
/-- What rides beside the buffers through every item: the generator register at some state, and nothing owed. -/
abbrev Rest (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The edge stage: entered from every such buffer at `W1`, left at `W2`. -/
def reg0 : Pipeline.RegionSeg (pcfgs (F := F)) adm' (pdats m) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ Lz lvz 0 fun _ _ => rfl
  pre c := iprop(StableHlo.held (c : Thread nD τ) (Pipeline.ucRefs τ sig) (W1 m c) ∗ Rest c)
  post c := iprop(StableHlo.held (c : Thread nD τ) (Pipeline.ucRefs τ sig) (W2 m c) ∗ Rest c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (Vin0 m c) (Vout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The node stage: entered from every such buffer at `W3`, left at `W4`. -/
def reg1 : Pipeline.RegionSeg (pcfgs (F := F)) adm' (pdats m) () defs₀ 𝒱₀ Lz lvz 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ Lz lvz 1 fun _ _ => rfl
  pre c := iprop(StableHlo.held (c : Thread nD τ) (Pipeline.ucRefs τ sig) (W3 m c) ∗ Rest c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (Vin1 m c) (Vout1 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The four items, and the launch -/

abbrev segs : List (Pipeline.Seg (pcfgs (F := F)) adm' (pdats m) () defs₀ 𝒱₀ Lz lvz) :=
  [ .host (hseg hostOps0 hostOps0_sub hostOps0_fresh (W0 m)),
    .region (reg0 m),
    .host (hseg hostOps1 hostOps1_sub hostOps1_fresh (W2 m)),
    .region (reg1 m) ]

/-- The program is the run of the four items. -/
theorem main_run (c : Dev nD) : main (F := F) c = Pipeline.Seg.run (segs m) := by
  rw [main_chain c, Pipeline.Seg.run_eq_chain]; rfl

set_option backward.isDefEq.respectTransparency.types false in
/-- From any memory with zero counters, every weakly fair execution of the program on the TensorCores terminates,
    nothing faulting, in a memory that agrees with `W4` on every buffer that outlives the regions. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W4 m c b) :=
  Pipeline.θ_run_regions_kit (pcfgs (F := F)) adm' (pdats m) () cellOf_inj emb₁ defs₀ 𝒱₀ Lz lvz m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rest c)) (Tₙ := Tend m)
    (hch := ⟨fun _ => .rfl, fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W4_kept m c main_arg0 (by decide) (by decide) (by decide) (by decide)),
     (h c _ (mem_uc main_arg1 (by decide))).trans (W4_kept m c main_arg1 (by decide) (by decide) (by decide) (by decide)),
     (h c _ (mem_uc main_arg2 (by decide))).trans (W4_kept m c main_arg2 (by decide) (by decide) (by decide) (by decide)),
     (h c _ (mem_uc main_arg3 (by decide))).trans (W4_kept m c main_arg3 (by decide) (by decide) (by decide) (by decide)),
     (h c _ (mem_uc main_arg4 (by decide))).trans (W4_kept m c main_arg4 (by decide) (by decide) (by decide) (by decide)),
     (h c _ (mem_uc main_arg5 (by decide))).trans (W4_kept m c main_arg5 (by decide) (by decide) (by decide) (by decide)),
     (h c _ (mem_uc main_arg6 (by decide))).trans (W4_kept m c main_arg6 (by decide) (by decide) (by decide) (by decide)),
     (h c _ (mem_uc main_arg7 (by decide))).trans (W4_kept m c main_arg7 (by decide) (by decide) (by decide) (by decide)),
     (h c _ (mem_uc main_arg8 (by decide))).trans (W4_kept m c main_arg8 (by decide) (by decide) (by decide) (by decide))⟩)
    (run_all m ρ)

end Cert.KernelIdeal.Frm

end
-- ==== Proof.LibNary3.lean ====
/-
  Reading a buffer after a line of host operations when one of them takes THREE operands as a family
  (a concatenation of three pieces).

  The contents after a line are a fold: each operation rewrites the buffer it writes and leaves the others. The
  result of an operation over a family of operands reads the earlier contents at `the k-th reference`, k bound; under
  that binder no reference is a literal, so the reading cannot go on into the operands. For a LITERAL family of three
  the lemma below states the result with each operand's contents at its own reference, and the one-pass reading of the
  fold then continues through all three.
-/
import Idealize.ShloMosaic.Lib.StableHlo.Run

namespace Idealize.ShloMosaic.StableHlo

variable {τ : Topo} {sig : RefSig} {Val : EltTy → Type}
variable {x a b y : Ref sig .tc}

/-- The result of an operation over a literal family of three references, each operand's contents at its own
    reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, in the form the one-pass reading uses. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- The one-pass reading of a fold of host operations at a buffer, going on through three-operand families. -/
macro "after_results_simp3" : tactic =>
  `(tactic| (simp (disch := decide) only [after_cons, after_nil,
      nullary_result', unary_result', binary_result', ternary_result', quaternary_result', reshape_result', nary3_result', nary4_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo
-- ==== Proof.HostSide.lean ====
/-
  The host operations around the two kernel regions, read at the buffers the regions take and at the results.

  Before the edge stage the host splits the edge list into its source and destination rows, wraps negative indices
  around, sums the edges' hidden states at both endpoints of every edge (`incSum`), gathers the source node's
  features and the destination node's summed hidden states for every edge, stacks them with the edge features into
  one 80-column matrix, stacks the three weight matrices, transposes the stack and U2. After it, the host cuts the
  64-column result into its two halves, sums the second half at both endpoints (`incSum` again), and transposes U1.
  Each buffer a region reads, and each result, is named below as one term of the launch memory.
-/
import proofs.«126725_j31877247271019_1_alg».proof.Proof.MainRunI
import proofs.«126725_j31877247271019_1_alg».proof.Proof.LibNary3

set_option maxRecDepth 16384

noncomputable section

namespace Cert.KernelIdeal.Host

open Idealize.ShloMosaic Idealize.ShloMosaic.TcCoe Idealize.ShloMosaic.StableHlo
open Idealize.SL Idealize.SL.Sem
open Cert.KernelIdeal Cert.KernelIdeal.Gen Cert.KernelIdeal.Frm

variable {F : FTy → Type} [FloatOps F]
variable (m : (ℓ : Loc nD τ sig) → Buf (Elt F) ℓ) (c : Dev nD)

/-! ## The shared host chain, named -/

/-- The edges' source nodes: row 0 of the edge list. -/
def src : IVec S1600000 32 :=
  shapeCast _ (extractStridedSlice S1x1600000 ![0, 0] (m ((c.tc : Thread nD τ).loc main_arg3)) slices_S2x1600000_S1x1600000_0_0) shapeCasts_S1x1600000_S1600000
/-- The edges' destination nodes: row 1 of the edge list. -/
def dst : IVec S1600000 32 :=
  shapeCast _ (extractStridedSlice S1x1600000 ![1, 0] (m ((c.tc : Thread nD τ).loc main_arg3)) slices_S2x1600000_S1x1600000_1_0) shapeCasts_S1x1600000_S1600000
/-- A negative index counts from the end: add the number of nodes to it; as a column of indices. -/
def wrap (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)
/-- Per node, the sum of `x` over the edges that start at it plus the sum over the edges that end at it. -/
def incSum (x : FVec F S1600000x32 .f32) : FVec F S100000x32 .f32 :=
  addf
    (Host.scatterAdd scatter_S100000x32_S1600000x1_S1600000x32_1_0_0_1
      (broadcastInDim S100000x32 ![] bcast_S_S100000x32 (constant S_ .f32 0x00000000#32))
      (broadcastInDim S1600000x1 ![0] bcast_S1600000_S1600000x1_0 (src m c)) x)
    (Host.scatterAdd scatter_S100000x32_S1600000x1_S1600000x32_1_0_0_1
      (broadcastInDim S100000x32 ![] bcast_S_S100000x32 (constant S_ .f32 0x00000000#32))
      (broadcastInDim S1600000x1 ![0] bcast_S1600000_S1600000x1_0 (dst m c)) x)
/-- Per edge, its source node's features. -/
def gSrc : FVec F S1600000x32 .f32 :=
  Host.gather gather_S100000x32_S1600000x1_S1600000x32_1_0_n_n_0_1_132 (m ((c.tc : Thread nD τ).loc main_arg0)) (wrap (src m c))
/-- Per edge, the summed hidden states at its destination node. -/
def gDst : FVec F S1600000x32 .f32 :=
  Host.gather gather_S100000x32_S1600000x1_S1600000x32_1_0_n_n_0_1_132 (incSum m c (m ((c.tc : Thread nD τ).loc main_arg2))) (wrap (dst m c))

/-! ## What the edge stage reads -/

/-- The stacked edge matrix. -/
theorem in_v28 : Vin0 m c main_v28 =
    concatenate S1600000x80 1 [⟨S1600000x32, truncf .bf16 (gSrc m c) bitsLt_bf16_f32⟩,
      ⟨S1600000x16, truncf .bf16 (m ((c.tc : Thread nD τ).loc main_arg1)) bitsLt_bf16_f32⟩,
      ⟨S1600000x32, truncf .bf16 (gDst m c) bitsLt_bf16_f32⟩] concatenates_S1600000x32_S1600000x16_S1600000x32_S1600000x80_d1 := by
  show StableHlo.after hostOps0 (W0 m c) (Proc.devRef .tc main_v28) = _
  after_results_simp3 <;> rfl

/-- The stacked weights, transposed. -/
theorem in_v31 : Vin0 m c main_v31 =
    truncf .bf16 (transpose S80x32 [1, 0] (concatenate S32x80 1 [⟨S32x32, m ((c.tc : Thread nD τ).loc main_arg4)⟩,
      ⟨S32x16, m ((c.tc : Thread nD τ).loc main_arg5)⟩, ⟨S32x32, m ((c.tc : Thread nD τ).loc main_arg6)⟩]
      concatenates_S32x32_S32x16_S32x32_S32x80_d1) transposes_S32x80_S80x32_1_0) bitsLt_bf16_f32 := by
  show StableHlo.after hostOps0 (W0 m c) (Proc.devRef .tc main_v31) = _
  after_results_simp3 <;> rfl

/-- U2 transposed. -/
theorem in_v33 : Vin0 m c main_v33 =
    truncf .bf16 (transpose S32x32 [1, 0] (m ((c.tc : Thread nD τ).loc main_arg8)) transposes_S32x32_S32x32_1_0) bitsLt_bf16_f32 := by
  show StableHlo.after hostOps0 (W0 m c) (Proc.devRef .tc main_v33) = _
  after_results_simp3 <;> rfl

/-! ## After the edge stage -/

/-- The edge stage's result array, as the node stage's host stretch finds it. -/
theorem mid_v34 : W2 m c (Proc.devRef .tc main_v34) = (dat0 (Vin0 m) c).arrAt 3 cfg0.N := W2_arr m c 3

/-- The source and destination rows are still what the first stretch made them. -/
theorem mid_v1 : W2 m c (Proc.devRef .tc main_v1) = src m c := by
  rw [W2_of_ne m c main_v1 (by decide)]
  show StableHlo.after hostOps0 (W0 m c) (Proc.devRef .tc main_v1) = _
  after_results_simp3 <;> rfl
theorem mid_v3 : W2 m c (Proc.devRef .tc main_v3) = dst m c := by
  rw [W2_of_ne m c main_v3 (by decide)]
  show StableHlo.after hostOps0 (W0 m c) (Proc.devRef .tc main_v3) = _
  after_results_simp3 <;> rfl
theorem mid_arg (b : Ref sig .tc) (h0 : b ∉ hostOps0_W) (h2 : ∀ w, Pipeline.arrRef spec0 w ≠ b) :
    W2 m c (Proc.devRef .tc b) = m ((c.tc : Thread nD τ).loc b) :=
  (W2_of_ne m c b h2).trans (StableHlo.after_of_writes_sub hostOps0 _ hostOps0_writes h0)

/-- The first result: columns 0..31 of the edge stage's array. -/
theorem out_v35 : W4 m c (Proc.devRef .tc main_v35) =
    extractStridedSlice S1600000x32 ![0, 0] ((dat0 (Vin0 m) c).arrAt 3 cfg0.N) slices_S1600000x64_S1600000x32_0_0 := by
  rw [W4_of_ne m c main_v35 (by decide)]
  show StableHlo.after hostOps1 (W2 m c) (Proc.devRef .tc main_v35) = _
  after_results_simp3
  rw [mid_v34]

/-! ## What the node stage reads -/

theorem in_v44 : Vin1 m c main_v44 = truncf .bf16 (m ((c.tc : Thread nD τ).loc main_arg0)) bitsLt_bf16_f32 := by
  show StableHlo.after hostOps1 (W2 m c) (Proc.devRef .tc main_v44) = _
  after_results_simp3
  rw [mid_arg m c main_arg0 (by decide) (by decide)]

theorem in_v46 : Vin1 m c main_v46 =
    truncf .bf16 (transpose S32x32 [1, 0] (m ((c.tc : Thread nD τ).loc main_arg7)) transposes_S32x32_S32x32_1_0) bitsLt_bf16_f32 := by
  show StableHlo.after hostOps1 (W2 m c) (Proc.devRef .tc main_v46) = _
  after_results_simp3
  rw [mid_arg m c main_arg7 (by decide) (by decide)]

/-- The summed messages: columns 32..63 of the edge stage's array, summed at both endpoints. -/
theorem in_v43 : Vin1 m c main_v43 =
    incSum m c (extractStridedSlice S1600000x32 ![0, 32] ((dat0 (Vin0 m) c).arrAt 3 cfg0.N) slices_S1600000x64_S1600000x32_0_32) := by
  show StableHlo.after hostOps1 (W2 m c) (Proc.devRef .tc main_v43) = _
  after_results_simp3
  rw [mid_v34, mid_v1, mid_v3]
  rfl

/-- The second result: the node stage's array. -/
theorem out_v47 : W4 m c (Proc.devRef .tc main_v47) = (dat1 (Vin1 m) c).arrAt 3 cfg1.N := W4_arr m c 3

end Cert.KernelIdeal.Host

end
-- ==== Proof.Spec.lean ====
/-
  The message-passing layer as plain functions on the extended reals.

  An edge e carries a row X(e, ·) of 80 numbers: the features of its source node (32), its own features (16) and the
  summed hidden states at its destination node (32). With a weight matrix Wt of shape 80 × 32 the edge's new hidden
  state is  hid(e, j) = max(Σ_k X(e, k) · Wt(k, j), 0),  and its message to the nodes is the projection
  proj(e, j) = Σ_k hid(e, k) · Ut(k, j)  through a 32 × 32 matrix Ut. The edge stage returns both side by side in one
  array of 64 columns: columns 0..31 hold hid, columns 32..63 hold proj.
  A node's new hidden state is  Σ_k Xn(n, k) · Ut(k, j) + Inc(n, j),  Inc the summed messages at the node.
  All of these read one ROW of their first argument, so they commute with taking a block of rows.
-/
import Idealize.ShloMosaic.PureOps.Ideal
import Idealize.ShloMosaic.Lib.ValueIdx

noncomputable section

open scoped BigOperators

namespace Cert.Gnn

open Idealize.ShloMosaic Idealize.ShloMosaic.ValueIdx

/-- A matrix of extended reals with `a` rows and `b` columns. -/
abbrev Arr (a b : Nat) : Type := (⟨2, ![a, b]⟩ : Shape).Idx → EReal

/-- The edge's new hidden state: the positive part of row `e` of `X` against column `j` of `Wt`. -/
def hid {E : Nat} (X : Arr E 80) (Wt : Arr 80 32) (e : Fin E) (j : Fin 32) : EReal :=
  max (∑ k : Fin 80, X (ix2 e k) * Wt (ix2 k j)) 0

/-- The edge's message: its hidden state against column `j` of `Ut`. -/
def proj {E : Nat} (X : Arr E 80) (Wt : Arr 80 32) (Ut : Arr 32 32) (e : Fin E) (j : Fin 32) : EReal :=
  ∑ k : Fin 32, hid X Wt e k * Ut (ix2 k j)

/-- The edge stage's result: hidden states in columns 0..31, messages in columns 32..63. -/
def edgeOut {E : Nat} (X : Arr E 80) (Wt : Arr 80 32) (Ut : Arr 32 32) : Arr E 64 := fun i =>
  if h : (i 1).val < 32 then hid X Wt (i 0) ⟨(i 1).val, h⟩
  else proj X Wt Ut (i 0) ⟨(i 1).val - 32, by have := idx2_lt1 i; omega⟩

/-- The node stage's result: row `n` of `Xn` against column `j` of `Ut`, plus the summed messages. -/
def nodeOut {N : Nat} (Xn : Arr N 32) (Inc : Arr N 32) (Ut : Arr 32 32) : Arr N 32 := fun i =>
  (∑ k : Fin 32, Xn (ix2 (i 0) k) * Ut (ix2 k (i 1))) + Inc i

end Cert.Gnn

end
-- ==== Proof.LibPlainDot.lean ====
/-
  A PLAIN MATRIX PRODUCT READ AT AN INDEX (general lemmas; they mention no program).

  Take dimension numbers of a product [M, K] × [K, N] → [M, N] that contract the left operand's axis 1 with the
  right operand's axis 0, keep the left axis 0 and the right axis 1, and have no batch axes. The contraction index
  set then has one axis of extent K, so it is Fin K; the left operand's index at result index (i, j) and contraction
  position k is (i, k) and the right operand's is (k, j). Hence on the extended reals both the accumulate-into-zero
  product of the vector unit and the host's dot product are, at (i, j), the finite sum over k of l (i, k) · r (k, j).
-/
import Idealize.ShloMosaic.PureOps.Ideal.Laws
import Idealize.ShloMosaic.Lib.ValueIdx

noncomputable section

open scoped BigOperators

namespace Cert.Lib.PlainDot

open Idealize.ShloMosaic Idealize.ShloMosaic.ValueIdx

variable {M K N : Nat} (d : DotDims (⟨2, ![M, K]⟩ : Shape) (⟨2, ![K, N]⟩ : Shape) (⟨2, ![M, N]⟩ : Shape))

/-- The dimension numbers are those of a plain product: contract left axis 1 with right axis 0, keep left axis 0
    and right axis 1, no batch axes. -/
structure Plain : Prop where
  lc : d.lhsContracting = [1]
  rc : d.rhsContracting = [0]
  ln : d.lhsNonContracting = [0]
  rn : d.rhsNonContracting = [1]
  lb : d.lhsBatch = []
  rb : d.rhsBatch = []

variable {d}

theorem contr_rank (h : Plain d) : d.contr.rank = 1 := by rw [d.rank_contr, h.lc]; rfl

theorem contr_size (h : Plain d) : d.contr.size ⟨0, by rw [contr_rank h]; exact Nat.one_pos⟩ = K := by
  have hp : 0 < d.lhsContracting.length := by rw [h.lc]; exact Nat.one_pos
  rw [d.size_contr 0 hp]
  have : d.lhsContracting[0] = (1 : Fin 2) := by simp [h.lc]
  rw [this]; rfl

/-- The left operand's row is the result's row. -/
theorem lhs_row (h : Plain d) (j : (⟨2, ![M, N]⟩ : Shape).Idx) (q : d.contr.Idx) : (d.lhsIdx j q 0).val = (j 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  have key : ∀ (p p' : Nat) (hp : p < (⟨2, ![M, N]⟩ : Shape).rank) (hp' : p' < (⟨2, ![M, N]⟩ : Shape).rank), p = p' → (j ⟨p, hp⟩).val = (j ⟨p', hp'⟩).val :=
    fun p p' hp hp' e => by subst e; rfl
  exact key _ 0 _ Nat.zero_lt_two (by simp [h.lb, h.ln])

/-- The left operand's column is the contraction position. -/
theorem lhs_col (h : Plain d) (j : (⟨2, ![M, N]⟩ : Shape).Idx) (q : d.contr.Idx) :
    (d.lhsIdx j q 1).val = (q ⟨0, by rw [contr_rank h]; exact Nat.one_pos⟩).val :=
  d.lhsIdx_val_of_single h.lc j q

/-- The right operand's row is the contraction position. -/
theorem rhs_row (h : Plain d) (j : (⟨2, ![M, N]⟩ : Shape).Idx) (q : d.contr.Idx) :
    (d.rhsIdx j q 0).val = (q ⟨0, by rw [contr_rank h]; exact Nat.one_pos⟩).val :=
  d.rhsIdx_val_of_single h.rc j q

/-- The right operand's column is the result's column. -/
theorem rhs_col (h : Plain d) (j : (⟨2, ![M, N]⟩ : Shape).Idx) (q : d.contr.Idx) : (d.rhsIdx j q 1).val = (j 1).val := by
  have hb : (1 : Fin (⟨2, ![K, N]⟩ : Shape).rank) ∉ d.rhsBatch := by rw [h.rb]; exact List.not_mem_nil
  have hn : (1 : Fin (⟨2, ![K, N]⟩ : Shape).rank) ∈ d.rhsNonContracting := by rw [h.rn]; exact List.mem_singleton.mpr rfl
  unfold DotDims.rhsIdx
  rw [dif_neg hb, dif_pos hn]
  simp only [Fin.val_cast]
  have key : ∀ (p p' : Nat) (hp : p < (⟨2, ![M, N]⟩ : Shape).rank) (hp' : p' < (⟨2, ![M, N]⟩ : Shape).rank), p = p' → (j ⟨p, hp⟩).val = (j ⟨p', hp'⟩).val :=
    fun p p' hp hp' e => by subst e; rfl
  exact key _ 1 _ Nat.one_lt_two (by simp [h.lb, h.ln, h.rn])

/-- The contraction's sum, re-indexed by the one contracted coordinate. -/
theorem sum_eq (h : Plain d) (l : (⟨2, ![M, K]⟩ : Shape).Idx → EReal) (r : (⟨2, ![K, N]⟩ : Shape).Idx → EReal)
    (j : (⟨2, ![M, N]⟩ : Shape).Idx) :
    ∑ q : d.contr.Idx, l (d.lhsIdx j q) * r (d.rhsIdx j q) = ∑ k : Fin K, l (ix2 (j 0) k) * r (ix2 k (j 1)) := by
  rw [← Equiv.sum_comp (contrEquiv1 d K (contr_rank h) (contr_size h)).symm]
  refine Finset.sum_congr rfl fun k _ => ?_
  have hk := contrEquiv1_symm_val d K (contr_rank h) (contr_size h) k
  have el : d.lhsIdx j ((contrEquiv1 d K (contr_rank h) (contr_size h)).symm k) = ix2 (j 0) k := funext fun a => Fin.ext (by
    match a with
    | ⟨0, _⟩ => exact lhs_row h _ _
    | ⟨1, _⟩ => exact (lhs_col h _ _).trans hk)
  have er : d.rhsIdx j ((contrEquiv1 d K (contr_rank h) (contr_size h)).symm k) = ix2 k (j 1) := funext fun a => Fin.ext (by
    match a with
    | ⟨0, _⟩ => exact (rhs_row h _ _).trans hk
    | ⟨1, _⟩ => exact rhs_col h _ _)
  exact congrArg₂ (· * ·) (congrArg l el) (congrArg r er)

/-- The vector unit's product into the zero accumulator, at an index. -/
theorem matmul_zero_apply (h : Plain d) {φ₁ φ₂ : FTy} (prec : Option ContractPrecision)
    (l : FVec Ideal (⟨2, ![M, K]⟩ : Shape) φ₁) (r : FVec Ideal (⟨2, ![K, N]⟩ : Shape) φ₂) (j : (⟨2, ![M, N]⟩ : Shape).Idx) :
    FloatOps.matmul d prec l r (constant (⟨2, ![M, N]⟩ : Shape) .f32 0x00000000#32) j = ∑ k : Fin K, l (ix2 (j 0) k) * r (ix2 k (j 1)) :=
  (Ideal.matmul_constant_zero_apply d prec l r j).trans (sum_eq h l r j)

/-- The host's dot product, at an index. -/
theorem dotGeneral_apply (h : Plain d) {φ₁ φ₂ : FTy} (prec : Option ContractPrecision) (sched : HostSchedule)
    (l : FVec Ideal (⟨2, ![M, K]⟩ : Shape) φ₁) (r : FVec Ideal (⟨2, ![K, N]⟩ : Shape) φ₂) (j : (⟨2, ![M, N]⟩ : Shape).Idx) :
    FloatOps.dotGeneral d prec sched l r j = ∑ k : Fin K, l (ix2 (j 0) k) * r (ix2 k (j 1)) :=
  (Ideal.dotGeneral_apply d prec sched l r j).trans (sum_eq h l r j)

end Cert.Lib.PlainDot

end
-- ==== Proof.EdgeValue.lean ====
/-
  What the edge stage leaves in its result array, on the extended reals.

  At grid point t the body's value is the edge function (hidden states in columns 0..31, messages in columns 32..63)
  of the point's block of edge rows and the two whole matrices; a row of that function reads only the same row of the
  edge matrix, so the block the point writes back is rows 8000·t .. 8000·t + 7999 of the edge function of the WHOLE
  edge matrix. The 200 blocks tile the array, so the array ends holding that function.
-/
import proofs.«126725_j31877247271019_1_alg».proof.Proof.EdgeRegionI
import proofs.«126725_j31877247271019_1_alg».proof.Proof.Spec
import proofs.«126725_j31877247271019_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Frm Cert.Gnn

/-- The first product's dimension numbers are a plain matrix product's: contract the left columns with the right rows. -/
theorem plain_hid : Cert.Lib.PlainDot.Plain dot_S8000x80_S80x32_S8000x32_1_0_0_1_n_n := ⟨rfl, rfl, rfl, rfl, rfl, rfl⟩
/-- So are the second product's. -/
theorem plain_proj : Cert.Lib.PlainDot.Plain dot_S8000x32_S32x32_S8000x32_1_0_0_1_n_n := ⟨rfl, rfl, rfl, rfl, rfl, rfl⟩

/-- The body's hidden block at an index: the positive part of the row against the weight matrix's column. -/
theorem hid_block_apply (x0 : FVec Ideal S8000x80 .bf16) (x1 : FVec Ideal S80x32 .bf16) (p : Fin 8000) (k : Fin 32) :
    maximumf (matmul dot_S8000x80_S80x32_S8000x32_1_0_0_1_n_n none x0 x1 (constant S8000x32 .f32 0x00000000#32))
        (broadcast S8000x32 (Scalar.ofBits (F := Ideal) .f32 0x00000000#32)) (ix2 p k)
      = hid (E := 8000) x0 x1 p k := by
  rw [maximumf_apply, broadcast_apply]
  show max (FloatOps.matmul dot_S8000x80_S80x32_S8000x32_1_0_0_1_n_n none x0 x1 (constant S8000x32 .f32 0x00000000#32) (ix2 p k))
      (Ideal.ofBits .f32 0x00000000#32) = _
  rw [Cert.Lib.PlainDot.matmul_zero_apply plain_hid, Ideal.ofBits_zero_f32]
  rfl

/-- The body's message block at an index: the row of the block it is given against the projection matrix's column. -/
theorem proj_block_apply (z : FVec Ideal S8000x32 .bf16) (x2 : FVec Ideal S32x32 .bf16) (p : Fin 8000) (k : Fin 32) :
    matmul dot_S8000x32_S32x32_S8000x32_1_0_0_1_n_n none z x2 (constant S8000x32 .f32 0x00000000#32) (ix2 p k)
      = ∑ j : Fin 32, z (ix2 p j) * x2 (ix2 j k) :=
  Cert.Lib.PlainDot.matmul_zero_apply plain_proj none z x2 (ix2 p k)

/-- THE BODY'S VALUE is the edge function of its three blocks: columns below 32 come from the first piece of the
    concatenation, the hidden block; the others from the second, the hidden block (its format change is the identity on
    extended reals) against the projection matrix. -/
theorem pay_eq (x0 : Vec Ideal S8000x80 .bf16) (x1 : Vec Ideal S80x32 .bf16) (x2 : Vec Ideal S32x32 .bf16) :
    k0_pay1 (F := Ideal) x0 x1 x2 = edgeOut (E := 8000) x0 x1 x2 := by
  funext i
  obtain ⟨p, q, rfl⟩ : ∃ (p : Fin 8000) (q : Fin 64), i = ix2 p q := ⟨i 0, i 1, eq_ix2 i⟩
  unfold k0_pay1
  simp only [shapeCast_self]
  unfold edgeOut
  by_cases h : q.val < 32
  · rw [dif_pos (show ((ix2 p q : (⟨2, ![8000, 64]⟩ : Shape).Idx) 1).val < 32 from h)]
    rw [concatenate_pair_apply_left (t := S8000x64) (s₁ := S8000x32) (s₂ := S8000x32) (1 : Fin 2) _ _ _ (ix2 p q) rfl
      (ix2 p (⟨q.val, h⟩ : Fin 32) : S8000x32.Idx)
      (fun b => by match b with | ⟨0, _⟩ => rfl | ⟨1, _⟩ => rfl)]
    exact hid_block_apply x0 x1 p ⟨q.val, h⟩
  · rw [dif_neg (show ¬ ((ix2 p q : (⟨2, ![8000, 64]⟩ : Shape).Idx) 1).val < 32 from h)]
    have h2 : q.val - 32 < 32 := by have := q.isLt; omega
    rw [concatenate_pair_apply_right (t := S8000x64) (s₁ := S8000x32) (s₂ := S8000x32) (1 : Fin 2) _ _ _ (ix2 p q) rfl rfl
      (ix2 p (⟨q.val - 32, h2⟩ : Fin 32) : S8000x32.Idx)
      (fun b => by match b with | ⟨0, _⟩ => exact fun _ => rfl | ⟨1, _⟩ => exact fun hb => absurd rfl hb)
      (by show q.val - 32 + 32 = q.val; omega)]
    refine (proj_block_apply _ x2 p ⟨q.val - 32, h2⟩).trans ?_
    unfold proj
    refine Finset.sum_congr rfl fun k _ => ?_
    rw [truncf_apply]
    exact congrArg (· * x2 (ix2 k ⟨q.val - 32, h2⟩)) (hid_block_apply x0 x1 p k)

/-- A row of the edge function reads only that row of the edge matrix: if row `y 0` of `X'` is row `i 0` of `X`, the two
    matrices are the same and the columns agree, the edge function of the one at `y` is that of the other at `i`. -/
theorem edgeOut_row {E E' : Nat} (X' : Arr E' 80) (X : Arr E 80) (Wt' Wt : Arr 80 32) (Ut' Ut : Arr 32 32)
    (y : (⟨2, ![E', 64]⟩ : Shape).Idx) (i : (⟨2, ![E, 64]⟩ : Shape).Idx)
    (hcol : (i 1).val = (y 1).val)
    (hX : ∀ k : Fin 80, X' (ix2 (y 0) k) = X (ix2 (i 0) k)) (hW : Wt' = Wt) (hU : Ut' = Ut) :
    edgeOut X' Wt' Ut' y = edgeOut X Wt Ut i := by
  subst hW hU
  have hh : ∀ j : Fin 32, hid X' Wt' (y 0) j = hid X Wt' (i 0) j := fun j => by
    unfold hid
    exact congrArg (max · 0) (Finset.sum_congr rfl fun k _ => by rw [hX])
  have hp : ∀ j : Fin 32, proj X' Wt' Ut' (y 0) j = proj X Wt' Ut' (i 0) j := fun j => by
    unfold proj
    exact Finset.sum_congr rfl fun k _ => by rw [hh]
  unfold edgeOut
  by_cases h : (y 1).val < 32
  · have h' : (i 1).val < 32 := by omega
    rw [dif_pos h, dif_pos h', hh]
    exact congrArg (hid X Wt' (i 0)) (Fin.ext hcol.symm)
  · have h' : ¬ (i 1).val < 32 := by omega
    rw [dif_neg h, dif_neg h', hp]
    exact congrArg (proj X Wt' Ut' (i 0)) (Fin.ext (by show (y 1).val - 32 = (i 1).val - 32; rw [hcol]))

variable (V : (c : Dev nD) → (b : Ref sig .tc) → Buf (Elt Ideal) ((c : Thread nD τ).loc b))

/-- The zero offsets of a whole-buffer access, as the constant function. -/
theorem zero_offsets : (![0, 0] : Fin 2 → Nat) = fun _ => 0 := funext fun a => by fin_cases a <;> rfl

/-- The printed index maps over the 200 grid points: the edge rows' block and the result's block have the same row
    block index, which is the point's number; every column block index is 0; the two matrices are read at block (0, 0). -/
theorem block_indices : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is block `t` of the edge function of the three arrays as the region finds them: the
    body's value is the edge function of the point's blocks; the matrices' blocks are the matrices, and row `r` of the
    edge rows' block is row `8000·t + r` of the edge matrix, the row of the result array the block's row `r` goes to. -/
theorem flushed_eq (c : Dev nD) (t : Fin cfg0.N) :
    (dat0 (F := Ideal) V c).flushed 3 t
      = ((cfg0.win 3).blk t).view.read (Elt Ideal) (edgeOut (E := 1600000) (V c main_v28) (V c main_v31) (V c main_v33)) := by
  show (cfg0.win 3).cut (grid0.coords t) ((dat0 V c).after 3 t) = _
  rw [after0_3]
  unfold out0_3
  rw [View.canon_unit_zero zero_offsets]
  simp only [View.ld_unit_zero (S := S8000x80) zero_offsets, View.ld_unit_zero (S := S80x32) zero_offsets,
    View.ld_unit_zero (S := S32x32) zero_offsets]
  rw [pay_eq]
  obtain ⟨e00, e01, e10, e11, e20, e21, e30, e31⟩ := block_indices t
  refine funext (fun (y : S8000x64.Idx) => ?_)
  show edgeOut (E := 8000) (iblk0 V c 0 t) (iblk0 V c 1 t) (iblk0 V c 2 t) y
      = edgeOut (E := 1600000) (V c main_v28) (V c main_v31) (V c main_v33) (((cfg0.win 3).blk t).view.emb y)
  refine edgeOut_row _ _ _ _ _ _ y _ ?_ ?_ ?_ ?_
  · show win0_3.index t (1 : Fin 2) * 64 + 1 * (y 1).val = (y 1).val
    omega
  · intro k
    show V c main_v28 (((cfg0.win 0).blk t).view.emb (ix2 (y 0) k)) = V c main_v28 (ix2 ((((cfg0.win 3).blk t).view.emb y) 0) k)
    congr 1; funext a; apply Fin.ext
    match a with
    | ⟨0, _⟩ => show win0_0.index t (0 : Fin 2) * 8000 + 1 * (y 0).val = win0_3.index t (0 : Fin 2) * 8000 + 1 * (y 0).val; omega
    | ⟨1, _⟩ => show win0_0.index t (1 : Fin 2) * 80 + 1 * k.val = k.val; omega
  · funext z
    show V c main_v31 (((cfg0.win 1).blk t).view.emb z) = V c main_v31 z
    congr 1; funext a; apply Fin.ext
    match a with
    | ⟨0, _⟩ => show win0_1.index t (0 : Fin 2) * 80 + 1 * (z 0).val = (z 0).val; omega
    | ⟨1, _⟩ => show win0_1.index t (1 : Fin 2) * 32 + 1 * (z 1).val = (z 1).val; omega
  · funext z
    show V c main_v33 (((cfg0.win 2).blk t).view.emb z) = V c main_v33 z
    congr 1; funext a; apply Fin.ext
    match a with
    | ⟨0, _⟩ => show win0_2.index t (0 : Fin 2) * 32 + 1 * (z 0).val = (z 0).val; omega
    | ⟨1, _⟩ => show win0_2.index t (1 : Fin 2) * 32 + 1 * (z 1).val = (z 1).val; omega

/-- An index of the result array is in point `t`'s block iff each coordinate is in the block's range on its axis. -/
theorem mem_block (t : Fin cfg0.N) (i : S1600000x64.Idx) :
    i ∈ ((cfg0.win 3).blk t).view.set ↔ ∀ a : Fin 2, win0_3.index t a * S8000x64.size a ≤ (i a).val
      ∧ (i a).val < win0_3.index t a * S8000x64.size a + S8000x64.size a := by
  show i ∈ ((View.whole main_v34).slice (win0_3.rect t)).set ↔ _
  rw [View.set_slice_whole, Rect.mem_set_unit]
  exact Iff.rfl

/-- The blocks tile the array: row `r` lies in the block of point `r / 8000`, and every point writes back. -/
theorem blocks_cover (i : S1600000x64.Idx) :
    ∃ t : Fin cfg0.N, (cfg0.win 3).flush t = true ∧ i ∈ ((cfg0.win 3).blk t).view.set := by
  have hi0 : (i 0).val < 1600000 := idx2_lt0 i
  have hi1 : (i 1).val < 64 := idx2_lt1 i
  have hlt : (i 0).val / 8000 < cfg0.N := lt_of_lt_of_eq (by omega : (i 0).val / 8000 < 200) N_0.symm
  refine ⟨⟨(i 0).val / 8000, hlt⟩, flush0_3 _, ?_⟩
  rw [mem_block]
  obtain ⟨-, -, -, -, -, -, e30, e31⟩ := block_indices ⟨(i 0).val / 8000, hlt⟩
  have e30' : win0_3.index ⟨(i 0).val / 8000, hlt⟩ (0 : Fin 2) = (i 0).val / 8000 := e30
  intro a
  match a with
  | ⟨0, _⟩ =>
    show win0_3.index ⟨(i 0).val / 8000, hlt⟩ (0 : Fin 2) * 8000 ≤ (i 0).val
      ∧ (i 0).val < win0_3.index ⟨(i 0).val / 8000, hlt⟩ (0 : Fin 2) * 8000 + 8000
    omega
  | ⟨1, _⟩ =>
    show win0_3.index ⟨(i 0).val / 8000, hlt⟩ (1 : Fin 2) * 64 ≤ (i 1).val
      ∧ (i 1).val < win0_3.index ⟨(i 0).val / 8000, hlt⟩ (1 : Fin 2) * 64 + 64
    omega

/-- The edge stage's result array after the region: the edge function of the three arrays as the region finds them. -/
theorem edge_final (c : Dev nD) :
    (dat0 (F := Ideal) V c).arrAt 3 cfg0.N
      = edgeOut (E := 1600000) (V c main_v28) (V c main_v31) (V c main_v33) :=
  (dat0 (F := Ideal) V c).arrAt_eq_of_cover 3 _ (fun t _ => flushed_eq V c t) blocks_cover

end Cert.KernelIdeal.Val

end
-- ==== Proof.NodeValue.lean ====
/-
  What the node stage leaves in its result array, on the extended reals.

  At grid point t the body's value is the node function (rows of node features against the matrix, plus the summed
  messages) of the point's blocks of rows; a row of it reads only the same row of its two row-blocked inputs, so the
  block written back is rows 5000·t .. 5000·t + 4999 of the node function of the WHOLE arrays. The 20 blocks tile the
  array, so the array ends holding that function.
-/
import proofs.«126725_j31877247271019_1_alg».proof.Proof.NodeRegionI
import proofs.«126725_j31877247271019_1_alg».proof.Proof.Spec
import proofs.«126725_j31877247271019_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Frm Cert.Gnn

variable (V : (c : Dev nD) → (b : Ref sig .tc) → Buf (Elt Ideal) ((c : Thread nD τ).loc b))

/-- The zero offsets of a whole-buffer access, as a constant function. -/
private theorem node_zero_offsets : (![0, 0] : Fin 2 → Nat) = fun _ => 0 := funext fun a => by fin_cases a <;> rfl

/-- The body's one value is the node function of its three input blocks: the product into the zero accumulator is,
    entry by entry, the sum over the contracted index, and the second input is added to it. -/
private theorem node_pay_eq (x0 : Vec Ideal S5000x32 .bf16) (x1 : Vec Ideal S5000x32 .f32) (x2 : Vec Ideal S32x32 .bf16) :
    k1_pay1 (F := Ideal) x0 x1 x2 = nodeOut (N := 5000) x0 x1 x2 := by
  funext i
  unfold k1_pay1 nodeOut
  simp only [shapeCast_self]
  rw [addf_apply]
  exact congrArg (· + x1 i) (Cert.Lib.PlainDot.matmul_zero_apply
    (⟨rfl, rfl, rfl, rfl, rfl, rfl⟩ : Cert.Lib.PlainDot.Plain dot_S5000x32_S32x32_S5000x32_1_0_0_1_n_n) none x0 x2 i)

/-- The node function at an entry reads one row of its first argument, one column of the matrix and one entry of its
    second argument: two triples of arrays that agree on those give the same value, whatever their numbers of rows. -/
private theorem nodeOut_row {M N : Nat} (Xb Ib : Arr M 32) (Ub : Arr 32 32) (Xn Inc : Arr N 32) (Ut : Arr 32 32)
    (j : (⟨2, ![M, 32]⟩ : Shape).Idx) (i : (⟨2, ![N, 32]⟩ : Shape).Idx)
    (hX : ∀ k : Fin 32, Xb (ix2 (j 0) k) = Xn (ix2 (i 0) k))
    (hU : ∀ k : Fin 32, Ub (ix2 k (j 1)) = Ut (ix2 k (i 1)))
    (hI : Ib j = Inc i) : nodeOut Xb Ib Ub j = nodeOut Xn Inc Ut i := by
  unfold nodeOut
  rw [hI]
  congr 1
  exact Finset.sum_congr rfl fun k _ => by rw [hX k, hU k]

/-- The four index maps over the 20 grid points: the two row-blocked inputs and the result are at block (t, 0), the
    matrix at block (0, 0). -/
private theorem node_idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the node function of the whole arrays: entry (r, q) of the block is
    entry (5000·t + r, q) of the array, and there the node function reads row 5000·t + r of the node features (row r of
    the point's block), column q of the matrix, and entry (5000·t + r, q) of the summed messages (entry (r, q) of the
    point's block). -/
private theorem node_flushed_eq (c : Dev nD) (t : Fin cfg1.N) :
    (dat1 (F := Ideal) V c).flushed 3 t
      = ((cfg1.win 3).blk t).view.read (Elt Ideal) (nodeOut (N := 100000) (V c main_v44) (V c main_v43) (V c main_v46)) := by
  show (cfg1.win 3).cut (grid1.coords t) ((dat1 (F := Ideal) V c).after 3 t) = _
  rw [after1_3]
  unfold out1_3
  rw [View.canon_unit_zero node_zero_offsets]
  simp only [View.ld_unit_zero (S := S5000x32) node_zero_offsets, View.ld_unit_zero (S := S32x32) node_zero_offsets]
  rw [node_pay_eq]
  obtain ⟨e00, e01, e10, e11, e20, e21, e30, e31⟩ := node_idx_facts t
  funext j
  have hj0 : (j 0).val < 5000 := (j 0).isLt
  have hj1 : (j 1).val < 32 := (j 1).isLt
  show nodeOut (N := 5000) (iblk1 V c 0 t) (iblk1 V c 1 t) (iblk1 V c 2 t) ((cfg1.win 3).xinj (grid1.coords t) j)
    = nodeOut (N := 100000) (V c main_v44) (V c main_v43) (V c main_v46) (((cfg1.win 3).blk t).view.emb j)
  refine nodeOut_row _ _ _ _ _ _ _ _ (fun k => ?_) (fun k => ?_) ?_
  · -- row r of the node features' block is row 5000·t + r of the array
    show V c main_v44 (((cfg1.win 0).blk t).view.emb (ix2 (⟨(j 0).val, hj0⟩ : Fin 5000) k)) = V c main_v44 _
    refine congrArg (V c main_v44) (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 32 + 1 * k.val = k.val; omega
  · -- the matrix's one block is the matrix
    show V c main_v46 (((cfg1.win 2).blk t).view.emb (ix2 k (⟨(j 1).val, hj1⟩ : Fin 32))) = V c main_v46 _
    refine congrArg (V c main_v46) (funext fun a => Fin.ext ?_)
    match a with
    | ⟨0, _⟩ => show win1_2.index t (0 : Fin 2) * 32 + 1 * k.val = k.val; omega
    | ⟨1, _⟩ => show win1_2.index t (1 : Fin 2) * 32 + 1 * (j 1).val = win1_3.index t (1 : Fin 2) * 32 + 1 * (j 1).val; omega
  · -- entry (r, q) of the summed messages' block is entry (5000·t + r, q) of the array
    show V c main_v43 (((cfg1.win 1).blk t).view.emb j) = V c main_v43 (((cfg1.win 3).blk t).view.emb j)
    refine congrArg (V c main_v43) (funext fun a => Fin.ext ?_)
    match a with
    | ⟨0, _⟩ => show win1_1.index t (0 : Fin 2) * 5000 + 1 * (j 0).val = win1_3.index t (0 : Fin 2) * 5000 + 1 * (j 0).val; omega
    | ⟨1, _⟩ => show win1_1.index t (1 : Fin 2) * 32 + 1 * (j 1).val = win1_3.index t (1 : Fin 2) * 32 + 1 * (j 1).val; omega

/-- An index of the result array is in point `t`'s block iff each coordinate is in the block's range on its axis. -/
private theorem node_mem_blk (t : Fin cfg1.N) (i : S100000x32.Idx) :
    i ∈ ((cfg1.win 3).blk t).view.set ↔ ∀ a : Fin 2, win1_3.index t a * S5000x32.size a ≤ (i a).val
      ∧ (i a).val < win1_3.index t a * S5000x32.size a + S5000x32.size a := by
  show i ∈ ((View.whole main_v47).slice (win1_3.rect t)).set ↔ _
  rw [View.set_slice_whole, Rect.mem_set_unit]
  exact Iff.rfl

/-- The 20 blocks tile the array: row r lies in the block of point r / 5000. -/
private theorem node_cover (i : S100000x32.Idx) :
    ∃ t : Fin cfg1.N, (cfg1.win 3).flush t = true ∧ i ∈ ((cfg1.win 3).blk t).view.set := by
  have hi0 : (i 0).val < 100000 := (i 0).isLt
  have hi1 : (i 1).val < 32 := (i 1).isLt
  have hN : cfg1.N = 20 := N_1
  have ht : (i 0).val / 5000 < cfg1.N := by rw [hN]; omega
  refine ⟨⟨(i 0).val / 5000, ht⟩, flush1_3 _, ?_⟩
  rw [node_mem_blk]
  obtain ⟨-, -, -, -, -, -, e30, e31⟩ := node_idx_facts ⟨(i 0).val / 5000, ht⟩
  intro a
  match a with
  | ⟨0, _⟩ =>
    show win1_3.index ⟨(i 0).val / 5000, ht⟩ (0 : Fin 2) * 5000 ≤ (i 0).val
      ∧ (i 0).val < win1_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win1_3.index ⟨(i 0).val / 5000, ht⟩ (1 : Fin 2) * 32 ≤ (i 1).val
      ∧ (i 1).val < win1_3.index ⟨(i 0).val / 5000, ht⟩ (1 : Fin 2) * 32 + 32
    rw [e31]; omega

/-- The node stage's result array after the region: the node function of the three arrays as the region finds them. -/
theorem node_final (c : Dev nD) :
    (dat1 (F := Ideal) V c).arrAt 3 cfg1.N
      = nodeOut (N := 100000) (V c main_v44) (V c main_v43) (V c main_v46) := by
  exact (dat1 (F := Ideal) V c).arrAt_eq_of_cover 3 _ (fun t _ => node_flushed_eq V c t) node_cover

end Cert.KernelIdeal.Val

end
-- ==== Proof.Algebra.lean ====
/-
  The law that joins the two programs, on the extended reals, over abstract matrices.

  One program stacks three row blocks side by side — a (32 columns), b (16 columns), c (32 columns) — into a matrix of
  80 columns, stacks W1, W2, W3 the same way into a 32 × 80 matrix, transposes it, and takes ONE product; the other
  takes the three products a · W1ᵀ, b · W2ᵀ, c · W3ᵀ and adds them. A sum over 80 positions is the sum over the first
  32, the next 16 and the last 32 (addition of extended reals is commutative and associative, which is all a finite
  sum's regrouping needs; no cancellation, no distributivity, so no finiteness is used), and on each stretch the
  stacked matrices read the corresponding piece. A change of float format is the identity on the extended reals.
  Hence columns 0..31 of the edge function are the positive part of the three products' sum, columns 32..63 are that
  hidden state's product with U2ᵀ, and the node function is a product plus the summed messages.
-/
import proofs.«126725_j31877247271019_1_alg».proof.Proof.Spec
import proofs.«126725_j31877247271019_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Gnn

open Idealize.ShloMosaic Idealize.ShloMosaic.ValueIdx Cert.Lib.PlainDot

abbrev Sh (a b : Nat) : Shape := ⟨2, ![a, b]⟩
abbrev S0 : Shape := ⟨0, ![]⟩

/-! ### Regrouping a sum over 80 positions -/

/-- A sum over 80 positions is the sum over the first 32, the next 16 and the last 32. Only commutativity and
    associativity of addition are used, so it holds on the extended reals with no finiteness condition. -/
private theorem sum80 (f : Fin 80 → EReal) :
    ∑ k : Fin 80, f k
      = ((∑ k : Fin 32, f ⟨k.val, by have := k.isLt; omega⟩) + ∑ k : Fin 16, f ⟨32 + k.val, by have := k.isLt; omega⟩)
        + ∑ k : Fin 32, f ⟨48 + k.val, by have := k.isLt; omega⟩ := by
  have h1 : ∑ k : Fin 80, f k = (∑ i : Fin 48, f (Fin.castAdd 32 i)) + ∑ i : Fin 32, f (Fin.natAdd 48 i) :=
    Fin.sum_univ_add (a := 48) (b := 32) f
  have h2 : ∑ i : Fin 48, f (Fin.castAdd 32 i)
      = (∑ i : Fin 32, f (Fin.castAdd 32 (Fin.castAdd 16 i))) + ∑ i : Fin 16, f (Fin.castAdd 32 (Fin.natAdd 32 i)) :=
    Fin.sum_univ_add (a := 32) (b := 16) fun i => f (Fin.castAdd 32 i)
  rw [h1, h2]
  rfl

/-! ### Three blocks side by side, read in each stretch of columns -/

section Pieces

variable {α : Type} {R : Nat} (x0 x2 : (Sh R 32).Idx → α) (x1 : (Sh R 16).Idx → α)
  (h : Shape.Concatenates [Sh R 32, Sh R 16, Sh R 32] (Sh R 80) 1)

/-- Columns 0..31 of the stacked matrix are the first block. -/
private theorem cat_first (r : Fin R) (k : Fin 32) :
    concatenate (Sh R 80) 1 [⟨Sh R 32, x0⟩, ⟨Sh R 16, x1⟩, ⟨Sh R 32, x2⟩] h (ix2 r ⟨k.val, by have := k.isLt; omega⟩)
      = x0 (ix2 r k) :=
  concatenate_apply_piece (t := Sh R 80) 1 [⟨Sh R 32, x0⟩, ⟨Sh R 16, x1⟩, ⟨Sh R 32, x2⟩] h _ 0 (by simp) (Sh R 32) x0 rfl rfl 0 rfl (ix2 r k)
    (fun b => match b with
      | ⟨0, _⟩ => fun _ => rfl
      | ⟨1, _⟩ => fun hb => absurd (Fin.ext rfl) hb)
    (Nat.zero_add _)

/-- Columns 32..47 are the second block. -/
private theorem cat_second (r : Fin R) (k : Fin 16) :
    concatenate (Sh R 80) 1 [⟨Sh R 32, x0⟩, ⟨Sh R 16, x1⟩, ⟨Sh R 32, x2⟩] h (ix2 r ⟨32 + k.val, by have := k.isLt; omega⟩)
      = x1 (ix2 r k) :=
  concatenate_apply_piece (t := Sh R 80) 1 [⟨Sh R 32, x0⟩, ⟨Sh R 16, x1⟩, ⟨Sh R 32, x2⟩] h _ 1 (by simp) (Sh R 16) x1 rfl rfl 32 rfl (ix2 r k)
    (fun b => match b with
      | ⟨0, _⟩ => fun _ => rfl
      | ⟨1, _⟩ => fun hb => absurd (Fin.ext rfl) hb)
    rfl

/-- Columns 48..79 are the third block. -/
private theorem cat_third (r : Fin R) (k : Fin 32) :
    concatenate (Sh R 80) 1 [⟨Sh R 32, x0⟩, ⟨Sh R 16, x1⟩, ⟨Sh R 32, x2⟩] h (ix2 r ⟨48 + k.val, by have := k.isLt; omega⟩)
      = x2 (ix2 r k) :=
  concatenate_apply_piece (t := Sh R 80) 1 [⟨Sh R 32, x0⟩, ⟨Sh R 16, x1⟩, ⟨Sh R 32, x2⟩] h _ 2 (by simp) (Sh R 32) x2 rfl rfl 48 rfl (ix2 r k)
    (fun b => match b with
      | ⟨0, _⟩ => fun _ => rfl
      | ⟨1, _⟩ => fun hb => absurd (Fin.ext rfl) hb)
    rfl

end Pieces

/-! ### The edge function in each half of its columns, and a product read at an index -/

/-- Columns 0..31 of the edge function are the hidden state. -/
private theorem edgeOut_lo {E : Nat} (X : Arr E 80) (Wt : Arr 80 32) (Ut : Arr 32 32) (e : Fin E) (j : Fin 32) :
    edgeOut X Wt Ut (ix2 e ⟨j.val, by have := j.isLt; omega⟩) = hid X Wt e j := by
  have hlt : ((ix2 e (⟨j.val, by have := j.isLt; omega⟩ : Fin 64)) 1).val < 32 := j.isLt
  unfold edgeOut
  rw [dif_pos hlt]
  rfl

/-- Columns 32..63 of the edge function are the message. -/
private theorem edgeOut_hi {E : Nat} (X : Arr E 80) (Wt : Arr 80 32) (Ut : Arr 32 32) (e : Fin E) (j : Fin 32) :
    edgeOut X Wt Ut (ix2 e ⟨32 + j.val, by have := j.isLt; omega⟩) = proj X Wt Ut e j := by
  have hge : ¬ ((ix2 e (⟨32 + j.val, by have := j.isLt; omega⟩ : Fin 64)) 1).val < 32 :=
    Nat.not_lt.mpr (Nat.le_add_right 32 j.val)
  unfold edgeOut
  rw [dif_neg hge]
  exact congrArg (proj X Wt Ut e) (Fin.ext (Nat.add_sub_cancel_left 32 j.val))

/-- The host's plain product at a row and a column: the sum over the contracted position. -/
private theorem dot_apply {M K N : Nat} {φ₁ φ₂ : FTy} {d : DotDims (Sh M K) (Sh K N) (Sh M N)} (h : Plain d)
    (l : FVec Ideal (Sh M K) φ₁) (r : FVec Ideal (Sh K N) φ₂) (e : Fin M) (j : Fin N) :
    Host.dotGeneral d none l r (ix2 e j) = ∑ k : Fin K, l (ix2 e k) * r (ix2 k j) :=
  dotGeneral_apply h none .single l r (ix2 e j)

/-- A block of 32 columns starting at column 0, read at an index. -/
private theorem slice_lo_apply {α : Type} {E : Nat} (Y : (Sh E 64).Idx → α) (hS : (Sh E 64).Slices ![0, 0] (Sh E 32))
    (e : Fin E) (j : Fin 32) :
    extractStridedSlice (Sh E 32) ![0, 0] Y hS (ix2 e j) = Y (ix2 e ⟨j.val, by have := j.isLt; omega⟩) :=
  extractStridedSlice_apply ![0, 0] Y hS (ix2 e j) _ fun x => match x with
    | ⟨0, _⟩ => (Nat.zero_add _).symm
    | ⟨1, _⟩ => (Nat.zero_add _).symm

/-- A block of 32 columns starting at column 32, read at an index. -/
private theorem slice_hi_apply {α : Type} {E : Nat} (Y : (Sh E 64).Idx → α) (hS : (Sh E 64).Slices ![0, 32] (Sh E 32))
    (e : Fin E) (j : Fin 32) :
    extractStridedSlice (Sh E 32) ![0, 32] Y hS (ix2 e j) = Y (ix2 e ⟨32 + j.val, by have := j.isLt; omega⟩) :=
  extractStridedSlice_apply ![0, 32] Y hS (ix2 e j) _ fun x => match x with
    | ⟨0, _⟩ => (Nat.zero_add _).symm
    | ⟨1, _⟩ => rfl

section Edge

variable {E : Nat}
  (a c : FVec Ideal (Sh E 32) .f32) (b : FVec Ideal (Sh E 16) .f32)
  (W1 W3 U2 : FVec Ideal (Sh 32 32) .f32) (W2 : FVec Ideal (Sh 32 16) .f32)
  (hlt : FTy.bits .bf16 < FTy.bits .f32)
  (hX : Shape.Concatenates [Sh E 32, Sh E 16, Sh E 32] (Sh E 80) 1)
  (hW : Shape.Concatenates [Sh 32 32, Sh 32 16, Sh 32 32] (Sh 32 80) 1)
  (hT : (Sh 32 80).Transposes [1, 0] (Sh 80 32))
  (hT32 : (Sh 32 32).Transposes [1, 0] (Sh 32 32))
  (hT16 : (Sh 32 16).Transposes [1, 0] (Sh 16 32))
  (hS0 : (Sh E 64).Slices ![0, 0] (Sh E 32)) (hS32 : (Sh E 64).Slices ![0, 32] (Sh E 32))
  (hB : S0.BroadcastsInDim (Sh E 32) (![] : Fin 0 → Fin (Sh E 32).rank))
  (d32 : DotDims (Sh E 32) (Sh 32 32) (Sh E 32)) (h32 : Plain d32)
  (d16 : DotDims (Sh E 16) (Sh 16 32) (Sh E 32)) (h16 : Plain d16)

/-- The stacked edge matrix: a | b | c, each piece after its change of format. -/
abbrev Xcat : FVec Ideal (Sh E 80) .bf16 :=
  concatenate (Sh E 80) 1 [⟨Sh E 32, truncf .bf16 a hlt⟩, ⟨Sh E 16, truncf .bf16 b hlt⟩, ⟨Sh E 32, truncf .bf16 c hlt⟩] hX

/-- The stacked weights W1 | W2 | W3, transposed, after the change of format. -/
abbrev Wcat : FVec Ideal (Sh 80 32) .bf16 :=
  truncf .bf16 (transpose (Sh 80 32) [1, 0] (concatenate (Sh 32 80) 1 [⟨Sh 32 32, W1⟩, ⟨Sh 32 16, W2⟩, ⟨Sh 32 32, W3⟩] hW) hT) hlt

/-- U2 transposed, after the change of format. -/
abbrev Ucat : FVec Ideal (Sh 32 32) .bf16 := truncf .bf16 (transpose (Sh 32 32) [1, 0] U2 hT32) hlt

/-- The other program's hidden state: the positive part of the three products' sum. -/
abbrev refHid : FVec Ideal (Sh E 32) .f32 :=
  maximumf (addf (addf (Host.dotGeneral d32 none a (transpose (Sh 32 32) [1, 0] W1 hT32))
      (Host.dotGeneral d16 none b (transpose (Sh 16 32) [1, 0] W2 hT16)))
      (Host.dotGeneral d32 none c (transpose (Sh 32 32) [1, 0] W3 hT32)))
    (broadcastInDim (Sh E 32) ![] hB (constant (F := Ideal) S0 .f32 0x00000000#32))

/-- What both programs compute for edge e and column j: the positive part of the three products' sum. -/
private def core (e : Fin E) (j : Fin 32) : EReal :=
  max (((∑ k : Fin 32, (a (ix2 e k) : EReal) * W1 (ix2 j k)) + ∑ k : Fin 16, (b (ix2 e k) : EReal) * W2 (ix2 j k))
      + ∑ k : Fin 32, (c (ix2 e k) : EReal) * W3 (ix2 j k)) 0

/-- The stacked edge matrix in its first stretch of columns. -/
private theorem Xcat_first (e : Fin E) (k : Fin 32) :
    Xcat a c b hlt hX (ix2 e ⟨k.val, by have := k.isLt; omega⟩) = a (ix2 e k) :=
  cat_first (α := EReal) (truncf .bf16 a hlt) (truncf .bf16 c hlt) (truncf .bf16 b hlt) hX e k

/-- The stacked edge matrix in its second stretch of columns. -/
private theorem Xcat_second (e : Fin E) (k : Fin 16) :
    Xcat a c b hlt hX (ix2 e ⟨32 + k.val, by have := k.isLt; omega⟩) = b (ix2 e k) :=
  cat_second (α := EReal) (truncf .bf16 a hlt) (truncf .bf16 c hlt) (truncf .bf16 b hlt) hX e k

/-- The stacked edge matrix in its third stretch of columns. -/
private theorem Xcat_third (e : Fin E) (k : Fin 32) :
    Xcat a c b hlt hX (ix2 e ⟨48 + k.val, by have := k.isLt; omega⟩) = c (ix2 e k) :=
  cat_third (α := EReal) (truncf .bf16 a hlt) (truncf .bf16 c hlt) (truncf .bf16 b hlt) hX e k

/-- The stacked weights, transposed, in their first stretch of rows: W1 with its coordinates swapped. -/
private theorem Wcat_first (k : Fin 32) (j : Fin 32) :
    Wcat W1 W3 W2 hlt hW hT (ix2 ⟨k.val, by have := k.isLt; omega⟩ j) = W1 (ix2 j k) :=
  (transpose_ix2_apply _ hT _ j).trans (cat_first (α := EReal) W1 W3 W2 hW j k)

/-- The stacked weights, transposed, in their second stretch of rows: W2 with its coordinates swapped. -/
private theorem Wcat_second (k : Fin 16) (j : Fin 32) :
    Wcat W1 W3 W2 hlt hW hT (ix2 ⟨32 + k.val, by have := k.isLt; omega⟩ j) = W2 (ix2 j k) :=
  (transpose_ix2_apply _ hT _ j).trans (cat_second (α := EReal) W1 W3 W2 hW j k)

/-- The stacked weights, transposed, in their third stretch of rows: W3 with its coordinates swapped. -/
private theorem Wcat_third (k : Fin 32) (j : Fin 32) :
    Wcat W1 W3 W2 hlt hW hT (ix2 ⟨48 + k.val, by have := k.isLt; omega⟩ j) = W3 (ix2 j k) :=
  (transpose_ix2_apply _ hT _ j).trans (cat_third (α := EReal) W1 W3 W2 hW j k)

/-- The hidden state of the stacked matrices: the one sum over 80 positions splits into the three products. -/
private theorem hid_cat (e : Fin E) (j : Fin 32) :
    hid (Xcat a c b hlt hX) (Wcat W1 W3 W2 hlt hW hT) e j = core a c b W1 W3 W2 e j := by
  unfold hid core
  refine congrArg (fun s : EReal => max s 0) ((sum80 _).trans ?_)
  refine congrArg₂ (· + ·) (congrArg₂ (· + ·) ?_ ?_) ?_
  · exact Finset.sum_congr rfl fun k _ =>
      congrArg₂ (· * ·) (Xcat_first a c b hlt hX e k) (Wcat_first W1 W3 W2 hlt hW hT k j)
  · exact Finset.sum_congr rfl fun k _ =>
      congrArg₂ (· * ·) (Xcat_second a c b hlt hX e k) (Wcat_second W1 W3 W2 hlt hW hT k j)
  · exact Finset.sum_congr rfl fun k _ =>
      congrArg₂ (· * ·) (Xcat_third a c b hlt hX e k) (Wcat_third W1 W3 W2 hlt hW hT k j)

include h32 h16

/-- The other program's hidden state at an index: each product is a sum over its contracted position, each
    transposed weight reads the weight with its coordinates swapped, and the constant it is compared with is zero. -/
private theorem refHid_apply (e : Fin E) (j : Fin 32) :
    refHid a c b W1 W3 W2 hT32 hT16 hB d32 d16 (ix2 e j) = core a c b W1 W3 W2 e j := by
  have hz : broadcastInDim (Sh E 32) ![] hB (constant (F := Ideal) S0 .f32 0x00000000#32) (ix2 e j) = (0 : EReal) :=
    Ideal.ofBits_zero_f32
  have p1 : Host.dotGeneral d32 none a (transpose (Sh 32 32) [1, 0] W1 hT32) (ix2 e j)
      = ∑ k : Fin 32, (a (ix2 e k) : EReal) * W1 (ix2 j k) :=
    (dot_apply h32 a _ e j).trans (Finset.sum_congr rfl fun k _ =>
      congrArg (fun w : EReal => (a (ix2 e k) : EReal) * w) (transpose_ix2_apply W1 hT32 k j))
  have p2 : Host.dotGeneral d16 none b (transpose (Sh 16 32) [1, 0] W2 hT16) (ix2 e j)
      = ∑ k : Fin 16, (b (ix2 e k) : EReal) * W2 (ix2 j k) :=
    (dot_apply h16 b _ e j).trans (Finset.sum_congr rfl fun k _ =>
      congrArg (fun w : EReal => (b (ix2 e k) : EReal) * w) (transpose_ix2_apply W2 hT16 k j))
  have p3 : Host.dotGeneral d32 none c (transpose (Sh 32 32) [1, 0] W3 hT32) (ix2 e j)
      = ∑ k : Fin 32, (c (ix2 e k) : EReal) * W3 (ix2 j k) :=
    (dot_apply h32 c _ e j).trans (Finset.sum_congr rfl fun k _ =>
      congrArg (fun w : EReal => (c (ix2 e k) : EReal) * w) (transpose_ix2_apply W3 hT32 k j))
  unfold core
  exact congrArg₂ max (congrArg₂ (· + ·) (congrArg₂ (· + ·) p1 p2) p3) hz

/-- Columns 0..31 of the edge function of the stacked matrices are the other program's hidden state. -/
theorem slice_hid :
    extractStridedSlice (Sh E 32) ![0, 0] (edgeOut (Xcat a c b hlt hX) (Wcat W1 W3 W2 hlt hW hT) (Ucat U2 hlt hT32)) hS0
      = refHid a c b W1 W3 W2 hT32 hT16 hB d32 d16 := by
  funext i
  obtain ⟨e, j, rfl⟩ : ∃ (e : Fin E) (j : Fin 32), i = ix2 e j := ⟨i 0, i 1, eq_ix2 i⟩
  exact ((slice_lo_apply _ hS0 e j).trans (edgeOut_lo _ _ _ e j)).trans
    ((hid_cat a c b W1 W3 W2 hlt hX hW hT e j).trans (refHid_apply a c b W1 W3 W2 hT32 hT16 hB d32 h32 d16 h16 e j).symm)

/-- Columns 32..63 are the hidden state's product with U2ᵀ. -/
theorem slice_proj :
    extractStridedSlice (Sh E 32) ![0, 32] (edgeOut (Xcat a c b hlt hX) (Wcat W1 W3 W2 hlt hW hT) (Ucat U2 hlt hT32)) hS32
      = Host.dotGeneral d32 none (refHid a c b W1 W3 W2 hT32 hT16 hB d32 d16) (transpose (Sh 32 32) [1, 0] U2 hT32) := by
  funext i
  obtain ⟨e, j, rfl⟩ : ∃ (e : Fin E) (j : Fin 32), i = ix2 e j := ⟨i 0, i 1, eq_ix2 i⟩
  refine ((slice_hi_apply _ hS32 e j).trans (edgeOut_hi _ _ _ e j)).trans ?_
  refine Eq.trans ?_ (dot_apply h32 (refHid a c b W1 W3 W2 hT32 hT16 hB d32 d16) _ e j).symm
  unfold proj
  exact Finset.sum_congr rfl fun k _ =>
    congrArg (fun v : EReal => v * (transpose (Sh 32 32) [1, 0] U2 hT32 (ix2 k j) : EReal))
      ((hid_cat a c b W1 W3 W2 hlt hX hW hT e k).trans (refHid_apply a c b W1 W3 W2 hT32 hT16 hB d32 h32 d16 h16 e k).symm)

end Edge

section Node

variable {N : Nat} (Xn Inc : FVec Ideal (Sh N 32) .f32) (U1 : FVec Ideal (Sh 32 32) .f32)
  (hlt : FTy.bits .bf16 < FTy.bits .f32) (hT32 : (Sh 32 32).Transposes [1, 0] (Sh 32 32))
  (dN : DotDims (Sh N 32) (Sh 32 32) (Sh N 32)) (hN : Plain dN)

include hN

/-- The node function is the product with U1ᵀ plus the summed messages. -/
theorem node_eq :
    nodeOut (truncf .bf16 Xn hlt) Inc (truncf .bf16 (transpose (Sh 32 32) [1, 0] U1 hT32) hlt)
      = addf (Host.dotGeneral dN none Xn (transpose (Sh 32 32) [1, 0] U1 hT32)) Inc := by
  funext i
  obtain ⟨n, j, rfl⟩ : ∃ (n : Fin N) (j : Fin 32), i = ix2 n j := ⟨i 0, i 1, eq_ix2 i⟩
  exact congrArg (fun s : EReal => s + (Inc (ix2 n j) : EReal)) (dot_apply hN Xn _ n j).symm

end Node

end Cert.Gnn

end
-- ==== Proof.Bridge.lean ====
/-
  The two programs compute the same results.

  The kernel program's first result is columns 0..31 of the edge stage's array, which holds the edge function of the
  stacked matrices; by the regrouping law those columns are the positive part of  gSrc · W1ᵀ + ef · W2ᵀ + gDst · W3ᵀ,
  the other program's hidden state (the gathers and the endpoint sums are the same host operations in both programs,
  applied to the same arguments). Its second result is the node stage's array, the node function of the node
  features, the endpoint sums of columns 32..63 (the hidden state's product with U2ᵀ), and U1ᵀ: the product with U1ᵀ
  plus those sums, which is the other program's second result.
-/
import proofs.«126725_j31877247271019_1_alg».proof.Defs
import proofs.«126725_j31877247271019_1_alg».proof.Proof.HostSide
import proofs.«126725_j31877247271019_1_alg».proof.Proof.EdgeValue
import proofs.«126725_j31877247271019_1_alg».proof.Proof.NodeValue
import proofs.«126725_j31877247271019_1_alg».proof.Proof.Algebra
import proofs.«126725_j31877247271019_1_alg».proof.Proof.Gen.ReferenceIdeal.Run
import proofs.«126725_j31877247271019_1_alg».proof.Proof.Gen.Pre_finite_inputs

set_option maxRecDepth 16384

noncomputable section

namespace Cert.Bridge

open Idealize.ShloMosaic Idealize.ShloMosaic.TcCoe Idealize.SL.Sem
open Cert.Gnn Cert.Lib.PlainDot

variable (m : (ℓ : Loc Cert.KernelIdeal.nD Cert.KernelIdeal.τ Cert.KernelIdeal.sig) → Buf (Elt Ideal) ℓ) (c : Dev Cert.KernelIdeal.nD)

/-- The arguments' contents at launch, each at its matrix type. -/
abbrev aNF : FVec Ideal Cert.KernelIdeal.S100000x32 .f32 := m ((c.tc : Thread Cert.KernelIdeal.nD Cert.KernelIdeal.τ).loc Cert.KernelIdeal.main_arg0)
abbrev aEF : FVec Ideal Cert.KernelIdeal.S1600000x16 .f32 := m ((c.tc : Thread Cert.KernelIdeal.nD Cert.KernelIdeal.τ).loc Cert.KernelIdeal.main_arg1)
abbrev aW1 : FVec Ideal Cert.KernelIdeal.S32x32 .f32 := m ((c.tc : Thread Cert.KernelIdeal.nD Cert.KernelIdeal.τ).loc Cert.KernelIdeal.main_arg4)
abbrev aW2 : FVec Ideal Cert.KernelIdeal.S32x16 .f32 := m ((c.tc : Thread Cert.KernelIdeal.nD Cert.KernelIdeal.τ).loc Cert.KernelIdeal.main_arg5)
abbrev aW3 : FVec Ideal Cert.KernelIdeal.S32x32 .f32 := m ((c.tc : Thread Cert.KernelIdeal.nD Cert.KernelIdeal.τ).loc Cert.KernelIdeal.main_arg6)
abbrev aU1 : FVec Ideal Cert.KernelIdeal.S32x32 .f32 := m ((c.tc : Thread Cert.KernelIdeal.nD Cert.KernelIdeal.τ).loc Cert.KernelIdeal.main_arg7)
abbrev aU2 : FVec Ideal Cert.KernelIdeal.S32x32 .f32 := m ((c.tc : Thread Cert.KernelIdeal.nD Cert.KernelIdeal.τ).loc Cert.KernelIdeal.main_arg8)

theorem plain32 : Plain Cert.ReferenceIdeal.dot_S1600000x32_S32x32_S1600000x32_1_0_0_1_n_n := ⟨rfl, rfl, rfl, rfl, rfl, rfl⟩
theorem plain16 : Plain Cert.ReferenceIdeal.dot_S1600000x16_S16x32_S1600000x32_1_0_0_1_n_n := ⟨rfl, rfl, rfl, rfl, rfl, rfl⟩
theorem plainN : Plain Cert.ReferenceIdeal.dot_S100000x32_S32x32_S100000x32_1_0_0_1_n_n := ⟨rfl, rfl, rfl, rfl, rfl, rfl⟩

/-- The edges' new hidden states, as the other program writes them, over the kernel program's memory. -/
def hidK : FVec Ideal Cert.KernelIdeal.S1600000x32 .f32 :=
  refHid (E := 1600000) (Cert.KernelIdeal.Host.gSrc m c) (Cert.KernelIdeal.Host.gDst m c) (aEF m c)
    (aW1 m c) (aW3 m c) (aW2 m c)
    Cert.KernelIdeal.Facts₀.transposes_S32x32_S32x32_1_0 Cert.ReferenceIdeal.Facts₀.transposes_S32x16_S16x32_1_0
    Cert.ReferenceIdeal.Facts₀.bcast_S_S1600000x32
    Cert.ReferenceIdeal.dot_S1600000x32_S32x32_S1600000x32_1_0_0_1_n_n Cert.ReferenceIdeal.dot_S1600000x16_S16x32_S1600000x32_1_0_0_1_n_n

/-- The nodes' new hidden states, as the other program writes them. -/
def nodeK : FVec Ideal Cert.KernelIdeal.S100000x32 .f32 :=
  addf (Host.dotGeneral Cert.ReferenceIdeal.dot_S100000x32_S32x32_S100000x32_1_0_0_1_n_n none (aNF m c)
      (transpose Cert.KernelIdeal.S32x32 [1, 0] (aU1 m c) Cert.KernelIdeal.Facts₀.transposes_S32x32_S32x32_1_0))
    (Cert.KernelIdeal.Host.incSum m c (Host.dotGeneral Cert.ReferenceIdeal.dot_S1600000x32_S32x32_S1600000x32_1_0_0_1_n_n none (hidK m c)
      (transpose Cert.KernelIdeal.S32x32 [1, 0] (aU2 m c) Cert.KernelIdeal.Facts₀.transposes_S32x32_S32x32_1_0)))

open Cert.KernelIdeal Cert.KernelIdeal.Gen Cert.KernelIdeal.Frm Cert.KernelIdeal.Host Cert.KernelIdeal.Val in
/-- Columns 0..31 of the edge stage's array are the hidden states. -/
theorem edge_hid :
    extractStridedSlice Cert.KernelIdeal.S1600000x32 ![0, 0] ((dat0 (Vin0 m) c).arrAt 3 cfg0.N) Cert.KernelIdeal.Facts₀.slices_S1600000x64_S1600000x32_0_0
      = hidK m c := by
  rw [edge_final (Vin0 m) c, in_v28, in_v31, in_v33]
  exact slice_hid (E := 1600000) _ _ _ _ _ _ _ _ _ _ _ _ _ _ _ _ plain32 _ plain16

open Cert.KernelIdeal Cert.KernelIdeal.Gen Cert.KernelIdeal.Frm Cert.KernelIdeal.Host Cert.KernelIdeal.Val in
/-- Columns 32..63 of the edge stage's array are the hidden states' product with U2ᵀ. -/
theorem edge_msg :
    extractStridedSlice Cert.KernelIdeal.S1600000x32 ![0, 32] ((dat0 (Vin0 m) c).arrAt 3 cfg0.N) Cert.KernelIdeal.Facts₀.slices_S1600000x64_S1600000x32_0_32
      = Host.dotGeneral Cert.ReferenceIdeal.dot_S1600000x32_S32x32_S1600000x32_1_0_0_1_n_n none (hidK m c)
          (transpose Cert.KernelIdeal.S32x32 [1, 0] (aU2 m c) Cert.KernelIdeal.Facts₀.transposes_S32x32_S32x32_1_0) := by
  rw [edge_final (Vin0 m) c, in_v28, in_v31, in_v33]
  exact slice_proj (E := 1600000) _ _ _ _ _ _ _ _ _ _ _ _ _ _ _ _ plain32 _ plain16

open Cert.KernelIdeal Cert.KernelIdeal.Gen Cert.KernelIdeal.Frm Cert.KernelIdeal.Host Cert.KernelIdeal.Val in
/-- The node stage's array holds the nodes' new hidden states. -/
theorem node_hid : (dat1 (Vin1 m) c).arrAt 3 cfg1.N = nodeK m c := by
  rw [node_final (Vin1 m) c, in_v44, in_v43, in_v46, edge_msg]
  exact node_eq (N := 100000) _ _ _ _ _ _ plainN

open Cert.KernelIdeal Cert.KernelIdeal.Gen Cert.KernelIdeal.Frm Cert.KernelIdeal.Host in
/-- The kernel program runs, ends with its two results at `hidK` and `nodeK`, and leaves its arguments unchanged. -/
theorem kernel_run (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread nD τ).loc main_v35) = hidK m c
      ∧ r.2.mem ((c.tc : Thread nD τ).loc main_v47) = nodeK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v35 (by decide))).trans ((out_v35 m c).trans (edge_hid m c)),
     (h c _ (mem_uc main_v47 (by decide))).trans ((out_v47 m c).trans (node_hid m c)),
     (h c _ (mem_uc main_arg0 (by decide))).trans (W4_kept m c main_arg0 (by decide) (by decide) (by decide) (by decide)),
     (h c _ (mem_uc main_arg1 (by decide))).trans (W4_kept m c main_arg1 (by decide) (by decide) (by decide) (by decide)),
     (h c _ (mem_uc main_arg2 (by decide))).trans (W4_kept m c main_arg2 (by decide) (by decide) (by decide) (by decide)),
     (h c _ (mem_uc main_arg3 (by decide))).trans (W4_kept m c main_arg3 (by decide) (by decide) (by decide) (by decide)),
     (h c _ (mem_uc main_arg4 (by decide))).trans (W4_kept m c main_arg4 (by decide) (by decide) (by decide) (by decide)),
     (h c _ (mem_uc main_arg5 (by decide))).trans (W4_kept m c main_arg5 (by decide) (by decide) (by decide) (by decide)),
     (h c _ (mem_uc main_arg6 (by decide))).trans (W4_kept m c main_arg6 (by decide) (by decide) (by decide) (by decide)),
     (h c _ (mem_uc main_arg7 (by decide))).trans (W4_kept m c main_arg7 (by decide) (by decide) (by decide) (by decide)),
     (h c _ (mem_uc main_arg8 (by decide))).trans (W4_kept m c main_arg8 (by decide) (by decide) (by decide) (by decide))⟩)
    (run_all m ρ)

/-- From memories agreeing on the arguments both programs run and end with equal results. -/
theorem algebraic : Cert.algebraic_KernelIdeal_ReferenceIdeal := by
  intro m ρ m' ρ' _ hagree
  refine ⟨fun c => hidK m c, fun c => nodeK m c, kernel_run m ρ, ?_⟩
  refine (θ_run Cert.ReferenceIdeal.defs _ _).mono (fun r h c => ?_) (Cert.ReferenceIdeal.Value.run (F := Ideal) m' ρ')
  obtain ⟨e0, e1, e2, e3, e4, e5, e6, e7, e8⟩ := hagree c
  refine ⟨(h c).1.trans ?_, (h c).2.1.trans ?_, (h c).2.2⟩
  · rw [e0, e1, e2, e3, e4, e5, e6]
    rfl
  · unfold Cert.ReferenceIdeal.Value.res_main_v45
    rw [e0, e1, e2, e3, e4, e5, e6, e7, e8]
    rfl

end Cert.Bridge

end
-- ==== Proof.lean ====
/-
  A message-passing layer of a graph network: the kernel program against its plain reference.

  Both programs sum the edges' hidden states at the two endpoints of every edge, gather for every edge its source
  node's features and its destination node's summed hidden states, and update
      hidden(e) = max(W1 · f(src e) + W2 · f(e) + W3 · S(dst e), 0),      node(n) = U1 · f(n) + Σ_{e at n} U2 · hidden(e).
  The reference takes the three products separately and adds them; the kernel program stacks the three inputs into
  one 80-column matrix and the three weight matrices into one, and takes one product in a first kernel region, which
  also projects the hidden states through U2; a second kernel region adds the product with U1 to the summed messages.
  On the extended reals a change of float format is the identity and a sum over 80 positions is the sum of its three
  stretches, so the two programs compute the same function of the arguments (Proof/Algebra.lean, Proof/Bridge.lean);
  no finiteness is needed for that regrouping.
  Each kernel region is a pipeline over row blocks whose body overwrites its output block with one pure function of
  its input blocks (Proof/EdgeRegion*.lean, Proof/NodeRegion*.lean); the program is host operations, the first
  region, host operations, the second region, and no item writes an argument (Proof/MainRun*.lean). The same text
  serves the word-level program and the idealized one. The reference has no kernel: its frame is its run with the
  results dropped.
-/
import proofs.«126725_j31877247271019_1_alg».proof.Defs
import proofs.«126725_j31877247271019_1_alg».proof.Proof.Gen.Kernel
import proofs.«126725_j31877247271019_1_alg».proof.Proof.Gen.KernelIdeal
import proofs.«126725_j31877247271019_1_alg».proof.Proof.Gen.ReferenceIdeal
import proofs.«126725_j31877247271019_1_alg».proof.Proof.Gen.Pre_finite_inputs
import proofs.«126725_j31877247271019_1_alg».proof.Proof.Gen.ReferenceIdeal.Run
import proofs.«126725_j31877247271019_1_alg».proof.Proof.MainRunB
import proofs.«126725_j31877247271019_1_alg».proof.Proof.MainRunI
import proofs.«126725_j31877247271019_1_alg».proof.Proof.Bridge
import Idealize.ShloMosaic.Adequacy
import Idealize.ShloMosaic.Init

noncomputable section

namespace Cert.Proof

open Idealize.ShloMosaic Idealize.SL.Sem

/-- The word-level program runs and leaves its arguments unchanged. -/
theorem frame_kernel : Cert.frame_Kernel := fun m ρ _ => Cert.Kernel.Frm.frame m ρ

/-- So does the idealized program. -/
theorem frame_kernel_ideal : Cert.frame_KernelIdeal := fun m ρ _ => Cert.KernelIdeal.Frm.frame m ρ

/-- The reference is host operations only: its run, with the results dropped. -/
theorem frame_reference : Cert.frame_ReferenceIdeal := fun m ρ _ =>
  (θ_run Cert.ReferenceIdeal.defs _ _).mono (fun _ h c => (h c).2.2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, Cert.Bridge.algebraic⟩

end Cert.Proof

end
